-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x2048 : Shape := ⟨3, ![8, 512, 2048]⟩
abbrev S2048x2048 : Shape := ⟨2, ![2048, 2048]⟩
abbrev S2048x16 : Shape := ⟨2, ![2048, 16]⟩
abbrev S16x2048 : Shape := ⟨2, ![16, 2048]⟩
abbrev S1x2048 : Shape := ⟨2, ![1, 2048]⟩
abbrev S2048 : Shape := ⟨1, ![2048]⟩
abbrev S_ : Shape := ⟨0, ![]⟩

class Facts : Prop where
  bcast_S_S8x512x2048 : S_.BroadcastsInDim S8x512x2048 (![] : Fin 0 → Fin S8x512x2048.rank)
  reducesTo_S8x512x2048_S_d0_1_2 : S8x512x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x16 : S_.BroadcastsInDim S2048x16 (![] : Fin 0 → Fin S2048x16.rank)
  reducesTo_S2048x16_S_d0_1 : S2048x16.ReducesTo [0, 1] S_
  bcast_S_S16x2048 : S_.BroadcastsInDim S16x2048 (![] : Fin 0 → Fin S16x2048.rank)
  reducesTo_S16x2048_S_d0_1 : S16x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S1x2048 .f32) (main_arg5 : FVec F S2048 .f32) (main_v13 : IVec S_ 1) (main_v16 : IVec S16x2048 1) : IVec S_ 1 :=
  let main_c_5 : IVec S_ 1 := constantI S_ 1 1#1
  let main_v17 : IVec S_ 1 := (fun x v => Host.reduce IntOp.andi x v reducesTo_S16x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S8x512x2048 .f32) (main_arg1 : FVec F S2048x2048 .f32) (main_arg2 : FVec F S2048x16 .f32) (main_arg3 : FVec F S16x2048 .f32) (main_arg4 : FVec F S1x2048 .f32) (main_arg5 : FVec F S2048 .f32) : IVec S_ 1 :=
  let main_v0 : FVec F S8x512x2048 .f32 := Host.absf main_arg0
  let main_cst : FVec F S_ .f32 := constant S_ .f32 0x7F800000#32
  let main_v1 : FVec F S8x512x2048 .f32 := broadcastInDim S8x512x2048 ![] bcast_S_S8x512x2048 main_cst
  let main_v2 : IVec S8x512x2048 1 := cmpf .olt main_v0 main_v1
  let main_c : IVec S_ 1 := constantI S_ 1 1#1
  let main_v3 : IVec S_ 1 := (fun x v => Host.reduce IntOp.andi x v reducesTo_S8x512x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x16 .f32 := Host.absf main_arg2
  let main_cst_2 : FVec F S_ .f32 := constant S_ .f32 0x7F800000#32
  let main_v10 : FVec F S2048x16 .f32 := broadcastInDim S2048x16 ![] bcast_S_S2048x16 main_cst_2
  let main_v11 : IVec S2048x16 1 := cmpf .olt main_v9 main_v10
  let main_c_3 : IVec S_ 1 := constantI S_ 1 1#1
  let main_v12 : IVec S_ 1 := (fun x v => Host.reduce IntOp.andi x v reducesTo_S2048x16_S_d0_1 h_S_) main_v11 main_c_3
  let main_v13 : IVec S_ 1 := andi main_v8 main_v12
  let main_v14 : FVec F S16x2048 .f32 := Host.absf main_arg3
  let main_cst_4 : FVec F S_ .f32 := constant S_ .f32 0x7F800000#32
  let main_v15 : FVec F S16x2048 .f32 := broadcastInDim S16x2048 ![] bcast_S_S16x2048 main_cst_4
  let main_v16 : IVec S16x2048 1 := cmpf .olt main_v14 main_v15
  fn_part1 (F := F) main_arg4 main_arg5 main_v13 main_v16
-- ==== Kernel.lean ====
abbrev S8x512x2048 : Shape := ⟨3, ![8, 512, 2048]⟩
abbrev S2048x2048 : Shape := ⟨2, ![2048, 2048]⟩
abbrev S2048x16 : Shape := ⟨2, ![2048, 16]⟩
abbrev S16x2048 : Shape := ⟨2, ![16, 2048]⟩
abbrev S1x2048 : Shape := ⟨2, ![1, 2048]⟩
abbrev S2048 : Shape := ⟨1, ![2048]⟩
abbrev S4096x2048 : Shape := ⟨2, ![4096, 2048]⟩
abbrev S2048x512 : Shape := ⟨2, ![2048, 512]⟩
abbrev S16x512 : Shape := ⟨2, ![16, 512]⟩
abbrev S1x512 : Shape := ⟨2, ![1, 512]⟩
abbrev S512 : Shape := ⟨1, ![512]⟩
abbrev S512x2048 : Shape := ⟨2, ![512, 2048]⟩

abbrev nBuf : Space → Nat
  | .hbm => 11
  | .vmem => 15
  | .smem => 0
  | _ => 0

abbrev bufTy : (tb : Table) → Fin (tcTables nBuf tb) → BufTy
  | .hbm, ⟨0, _⟩ => ⟨S8x512x2048, .f32⟩
  | .hbm, ⟨1, _⟩ => ⟨S2048x2048, .f32⟩
  | .hbm, ⟨2, _⟩ => ⟨S2048x16, .f32⟩
  | .hbm, ⟨3, _⟩ => ⟨S16x2048, .f32⟩
  | .hbm, ⟨4, _⟩ => ⟨S1x2048, .f32⟩
  | .hbm, ⟨5, _⟩ => ⟨S2048, .f32⟩
  | .hbm, ⟨6, _⟩ => ⟨S4096x2048, .f32⟩
  | .hbm, ⟨7, _⟩ => ⟨S2048x2048, .bf16⟩
  | .hbm, ⟨8, _⟩ => ⟨S1x2048, .f32⟩
  | .hbm, ⟨9, _⟩ => ⟨S4096x2048, .f32⟩
  | .hbm, ⟨10, _⟩ => ⟨S8x512x2048, .f32⟩
  | .local _ .vmem, ⟨0, _⟩ => ⟨S2048x512, .f32⟩
  | .local _ .vmem, ⟨1, _⟩ => ⟨S2048x512, .f32⟩
  | .local _ .vmem, ⟨2, _⟩ => ⟨S2048x16, .f32⟩
  | .local _ .vmem, ⟨3, _⟩ => ⟨S16x512, .f32⟩
  | .local _ .vmem, ⟨4, _⟩ => ⟨S16x512, .f32⟩
  | .local _ .vmem, ⟨5, _⟩ => ⟨S1x512, .f32⟩
  | .local _ .vmem, ⟨6, _⟩ => ⟨S1x512, .f32⟩
  | .local _ .vmem, ⟨7, _⟩ => ⟨S2048x512, .bf16⟩
  | .local _ .vmem, ⟨8, _⟩ => ⟨S2048x512, .bf16⟩
  | .local _ .vmem, ⟨9, _⟩ => ⟨S512x2048, .f32⟩
  | .local _ .vmem, ⟨10, _⟩ => ⟨S512x2048, .f32⟩
  | .local _ .vmem, ⟨11, _⟩ => ⟨S2048x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S8x512x2048_S4096x2048 : S8x512x2048.ShapeCasts S4096x2048
  inb_S2048x16_S2048x16_0_0 : ∀ a, (![0, 0] : Fin 2 → Nat) a + S2048x16.size a ≤ S2048x16.size a
  h_S2048x16 : 0 < S2048x16.numel
  inb_S16x512_S16x512_0_0 : ∀ a, (![0, 0] : Fin 2 → Nat) a + S16x512.size a ≤ S16x512.size a
  h_S16x512 : 0 < S16x512.numel
  inb_S2048x512_S2048x512_0_0 : ∀ a, (![0, 0] : Fin 2 → Nat) a + S2048x512.size a ≤ S2048x512.size a
  h_S2048x512 : 0 < S2048x512.numel
  reduces_S2048x512_S512 : S2048x512.Reduces [0] S512
  shapeCasts_S512_S1x512 : S512.ShapeCasts S1x512
  inb_S1x512_S1x512_0_0 : ∀ a, (![0, 0] : Fin 2 → Nat) a + S1x512.size a ≤ S1x512.size a
  h_S1x512 : 0 < S1x512.numel
  broadcasts_S1x512_S2048x512 : S1x512.Broadcasts S2048x512
  bitsLt_bf16_f32 : FTy.bits .bf16 < FTy.bits .f32
  packedbf16_S2048x512_S2048x512_0_0 : (Rect.unit (s := S2048x512) ![0, 0] S2048x512.size inb_S2048x512_S2048x512_0_0).PackedRows (EltTy.packing .bf16)
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S4096x2048_S8x512x2048 : S4096x2048.ShapeCasts S8x512x2048
  dot_S2048x16_S16x512_S2048x512_1_0_0_1_n_n_wf : DotDims.WF S2048x16 S16x512 S2048x512 [1] [0] [0] [1] [] []
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x2048.size a
  hwx0_0 : ∀ i : grid0.Coords, EltTy.bits .f32 = 32 ∨ (Rect.block (s := S2048x2048) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S2048x16.size a
  hwx0_1 : ∀ i : grid0.Coords, EltTy.bits .f32 = 32 ∨ (Rect.block (s := S2048x16) S2048x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x2048.size a
  hwx0_2 : ∀ i : grid0.Coords, EltTy.bits .f32 = 32 ∨ (Rect.block (s := S16x2048) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x2048.size a
  hwx0_4 : ∀ i : grid0.Coords, EltTy.bits .bf16 = 32 ∨ (Rect.block (s := S2048x2048) S2048x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .f32 = 32 ∨ (Rect.block (s := S4096x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S4096x2048.size a
  hwx1_3 : ∀ i : grid1.Coords, EltTy.bits .f32 = 32 ∨ (Rect.block (s := S4096x2048) S512x2048.size (cc1_transform_3 i) (hinb1_3 i)).WholeWords (EltTy.packing .f32)

variable [Facts₀]

def dot_S2048x16_S16x512_S2048x512_1_0_0_1_n_n : DotDims S2048x16 S16x512 S2048x512 where
  lhsContracting := [1]
  rhsContracting := [0]
  lhsNonContracting := [0]
  rhsNonContracting := [1]
  lhsBatch := []
  rhsBatch := []
  wf := dot_S2048x16_S16x512_S2048x512_1_0_0_1_n_n_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x512x2048 : Shape := ⟨3, ![8, 512, 2048]⟩
abbrev S2048x2048 : Shape := ⟨2, ![2048, 2048]⟩
abbrev S2048x16 : Shape := ⟨2, ![2048, 16]⟩
abbrev S16x2048 : Shape := ⟨2, ![16, 2048]⟩
abbrev S1x2048 : Shape := ⟨2, ![1, 2048]⟩
abbrev S2048 : Shape := ⟨1, ![2048]⟩
abbrev S4096x2048 : Shape := ⟨2, ![4096, 2048]⟩
abbrev S2048x512 : Shape := ⟨2, ![2048, 512]⟩
abbrev S16x512 : Shape := ⟨2, ![16, 512]⟩
abbrev S1x512 : Shape := ⟨2, ![1, 512]⟩
abbrev S512 : Shape := ⟨1, ![512]⟩
abbrev S256x512 : Shape := ⟨2, ![256, 512]⟩
abbrev S1x256 : Shape := ⟨2, ![1, 256]⟩
abbrev S256x256 : Shape := ⟨2, ![256, 256]⟩

abbrev nBuf : Space → Nat
  | .hbm => 11
  | .vmem => 18
  | .smem => 0
  | _ => 0

abbrev bufTy : (tb : Table) → Fin (tcTables nBuf tb) → BufTy
  | .hbm, ⟨0, _⟩ => ⟨S8x512x2048, .f32⟩
  | .hbm, ⟨1, _⟩ => ⟨S2048x2048, .f32⟩
  | .hbm, ⟨2, _⟩ => ⟨S2048x16, .f32⟩
  | .hbm, ⟨3, _⟩ => ⟨S16x2048, .f32⟩
  | .hbm, ⟨4, _⟩ => ⟨S1x2048, .f32⟩
  | .hbm, ⟨5, _⟩ => ⟨S2048, .f32⟩
  | .hbm, ⟨6, _⟩ => ⟨S4096x2048, .f32⟩
  | .hbm, ⟨7, _⟩ => ⟨S2048x2048, .f32⟩
  | .hbm, ⟨8, _⟩ => ⟨S1x2048, .f32⟩
  | .hbm, ⟨9, _⟩ => ⟨S4096x2048, .f32⟩
  | .hbm, ⟨10, _⟩ => ⟨S8x512x2048, .f32⟩
  | .local _ .vmem, ⟨0, _⟩ => ⟨S2048x512, .f32⟩
  | .local _ .vmem, ⟨1, _⟩ => ⟨S2048x512, .f32⟩
  | .local _ .vmem, ⟨2, _⟩ => ⟨S2048x16, .f32⟩
  | .local _ .vmem, ⟨3, _⟩ => ⟨S16x512, .f32⟩
  | .local _ .vmem, ⟨4, _⟩ => ⟨S16x512, .f32⟩
  | .local _ .vmem, ⟨5, _⟩ => ⟨S1x512, .f32⟩
  | .local _ .vmem, ⟨6, _⟩ => ⟨S1x512, .f32⟩
  | .local _ .vmem, ⟨7, _⟩ => ⟨S2048x512, .f32⟩
  | .local _ .vmem, ⟨8, _⟩ => ⟨S2048x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S1x256, .f32⟩
  | .local _ .vmem, ⟨14, _⟩ => ⟨S1x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![16, 8, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S8x512x2048_S4096x2048 : S8x512x2048.ShapeCasts S4096x2048
  inb_S2048x16_S2048x16_0_0 : ∀ a, (![0, 0] : Fin 2 → Nat) a + S2048x16.size a ≤ S2048x16.size a
  h_S2048x16 : 0 < S2048x16.numel
  inb_S16x512_S16x512_0_0 : ∀ a, (![0, 0] : Fin 2 → Nat) a + S16x512.size a ≤ S16x512.size a
  h_S16x512 : 0 < S16x512.numel
  inb_S2048x512_S2048x512_0_0 : ∀ a, (![0, 0] : Fin 2 → Nat) a + S2048x512.size a ≤ S2048x512.size a
  h_S2048x512 : 0 < S2048x512.numel
  reduces_S2048x512_S512 : S2048x512.Reduces [0] S512
  shapeCasts_S512_S1x512 : S512.ShapeCasts S1x512
  inb_S1x512_S1x512_0_0 : ∀ a, (![0, 0] : Fin 2 → Nat) a + S1x512.size a ≤ S1x512.size a
  h_S1x512 : 0 < S1x512.numel
  broadcasts_S1x512_S2048x512 : S1x512.Broadcasts S2048x512
  shapeCasts_S2048_S1x2048 : S2048.ShapeCasts S1x2048
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  shapeCasts_S4096x2048_S8x512x2048 : S4096x2048.ShapeCasts S8x512x2048
  dot_S2048x16_S16x512_S2048x512_1_0_0_1_n_n_wf : DotDims.WF S2048x16 S16x512 S2048x512 [1] [0] [0] [1] [] []
  dot_S256x512_S256x512_S256x256_1_1_0_0_n_n_wf : DotDims.WF S256x512 S256x512 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x2048.size a
  hwx0_0 : ∀ i : grid0.Coords, EltTy.bits .f32 = 32 ∨ (Rect.block (s := S2048x2048) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S2048x16.size a
  hwx0_1 : ∀ i : grid0.Coords, EltTy.bits .f32 = 32 ∨ (Rect.block (s := S2048x16) S2048x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x2048.size a
  hwx0_2 : ∀ i : grid0.Coords, EltTy.bits .f32 = 32 ∨ (Rect.block (s := S16x2048) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x2048.size a
  hwx0_4 : ∀ i : grid0.Coords, EltTy.bits .f32 = 32 ∨ (Rect.block (s := S2048x2048) S2048x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S4096x2048.size a
  hwx1_0 : ∀ i : grid1.Coords, EltTy.bits .f32 = 32 ∨ (Rect.block (s := S4096x2048) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S2048x2048.size a
  hwx1_1 : ∀ i : grid1.Coords, EltTy.bits .f32 = 32 ∨ (Rect.block (s := S2048x2048) S256x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x2048.size a
  hwx1_2 : ∀ i : grid1.Coords, EltTy.bits .f32 = 32 ∨ (Rect.block (s := S1x2048) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S4096x2048.size a
  hwx1_3 : ∀ i : grid1.Coords, EltTy.bits .f32 = 32 ∨ (Rect.block (s := S4096x2048) S256x256.size (cc1_transform_3 i) (hinb1_3 i)).WholeWords (EltTy.packing .f32)

variable [Facts₀]

def dot_S2048x16_S16x512_S2048x512_1_0_0_1_n_n : DotDims S2048x16 S16x512 S2048x512 where
  lhsContracting := [1]
  rhsContracting := [0]
  lhsNonContracting := [0]
  rhsNonContracting := [1]
  lhsBatch := []
  rhsBatch := []
  wf := dot_S2048x16_S16x512_S2048x512_1_0_0_1_n_n_wf
def dot_S256x512_S256x512_S256x256_1_1_0_0_n_n : DotDims S256x512 S256x512 S256x256 where
  lhsContracting := [1]
  rhsContracting := [1]
  lhsNonContracting := [0]
  rhsNonContracting := [0]
  lhsBatch := []
  rhsBatch := []
  wf := dot_S256x512_S256x512_S256x256_1_1_0_0_n_n_wf

abbrev win0_0 : Pipeline.Window sig grid0 :=
  Pipeline.Window.ofSpec (Memref.whole main_arg1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== Proof.LibSums.lean ====
/-
  Finite sums over a flat index read through quotient and remainder.

  A position q below a·b is the pair (q / b, q % b). A sum over the flat positions that meet a condition on the pair is
  the double sum over the pairs that meet it; a sum over all flat positions is the sum over tiles of the sum inside a tile.
  Stated for any commutative additive monoid and any extents.
-/
import Idealize.ShloMosaic.Lib.ValueIdx

noncomputable section

open scoped BigOperators

namespace Cert.LibSums

/-- The quotient of a flat position by the inner extent, as the outer coordinate. -/
def hi {N a b : Nat} (hN : N = a * b) (q : Fin N) : Fin a :=
  ⟨q.val / b, by have := q.isLt; subst hN; exact Nat.div_lt_of_lt_mul (by have h := Nat.mul_comm a b; omega)⟩

/-- The remainder of a flat position by the inner extent, as the inner coordinate. -/
def lo {N : Nat} (b : Nat) (hb : 0 < b) (q : Fin N) : Fin b := ⟨q.val % b, Nat.mod_lt _ hb⟩

/-- The flat position of a pair. -/
def flat {N a b : Nat} (hN : N = a * b) (k : Fin a) (p : Fin b) : Fin N :=
  ⟨k.val * b + p.val, by
    have hk := k.isLt; have hp := p.isLt; subst hN
    calc k.val * b + p.val < k.val * b + b := by omega
      _ = (k.val + 1) * b := by ring
      _ ≤ a * b := Nat.mul_le_mul_right b hk⟩

/-- The pair of a flat position as an equivalence between the flat positions below `a·b` and the pairs; its inverse is
`flat`. The round trips are `q / b · b + q % b = q`, `(k·b + p) / b = k` and `(k·b + p) % b = p` for `p < b`. -/
def pairEquiv (a b : Nat) (hb : 0 < b) : Fin (a * b) ≃ Fin a × Fin b where
  toFun q := (hi rfl q, lo b hb q)
  invFun x := flat rfl x.1 x.2
  left_inv q := by
    apply Fin.ext
    show q.val / b * b + q.val % b = q.val
    exact Nat.div_add_mod' q.val b
  right_inv x := by
    obtain ⟨k, p⟩ := x
    apply Prod.ext
    · apply Fin.ext
      show (k.val * b + p.val) / b = k.val
      rw [Nat.add_comm, Nat.add_mul_div_right _ _ hb, Nat.div_eq_of_lt p.isLt, Nat.zero_add]
    · apply Fin.ext
      show (k.val * b + p.val) % b = p.val
      rw [Nat.add_comm, Nat.add_mul_mod_self_right, Nat.mod_eq_of_lt p.isLt]

/-- A sum over the flat positions whose pair meets `P` is the double sum over the pairs that meet `P`. -/
theorem sum_filter_flat {M : Type} [AddCommMonoid M] {N a b : Nat} (hN : N = a * b) (hb : 0 < b)
    (P : Fin a → Fin b → Prop) [∀ k p, Decidable (P k p)] (f : Fin a → Fin b → M) :
    ∑ q ∈ Finset.univ.filter (fun q : Fin N => P (hi hN q) (lo b hb q)), f (hi hN q) (lo b hb q)
      = ∑ k : Fin a, ∑ p ∈ Finset.univ.filter (fun p : Fin b => P k p), f k p := by
  subst hN
  rw [Finset.sum_filter]
  refine (Fintype.sum_equiv (pairEquiv a b hb)
    (fun q : Fin (a * b) => if P (hi rfl q) (lo b hb q) then f (hi rfl q) (lo b hb q) else 0)
    (fun x : Fin a × Fin b => if P x.1 x.2 then f x.1 x.2 else 0) (fun _ => rfl)).trans ?_
  rw [Fintype.sum_prod_type]
  refine Finset.sum_congr rfl (fun k _ => ?_)
  rw [Finset.sum_filter]

/-- A sum over all flat positions is the sum over tiles of the sum inside each tile. -/
theorem sum_tiles {M : Type} [AddCommMonoid M] {N a b : Nat} (hN : N = a * b) (f : Fin N → M) :
    ∑ r : Fin N, f r = ∑ t : Fin a, ∑ i : Fin b, f (flat hN t i) := by
  subst hN
  rcases Nat.eq_zero_or_pos b with hb | hb
  · subst hb
    haveI : IsEmpty (Fin (a * 0)) := ⟨fun q => absurd q.isLt (by simp)⟩
    rw [Fintype.sum_empty]
    exact (Finset.sum_eq_zero (fun t _ => Fintype.sum_empty _)).symm
  · refine ((pairEquiv a b hb).symm.sum_comp f).symm.trans ?_
    rw [Fintype.sum_prod_type]
    rfl

end Cert.LibSums

end
-- ==== Proof.Spec.lean ====
/-
  THE COMMON SPECIFICATION of the two programs, over the extended reals.

  Both programs compute  W' = (V + B·A) · (m · rsqrt(column sums of (V + B·A)²))  column block by column block
  (four blocks of 512 columns) and then  y = x·W'ᵀ + bias.  The first stage is the same text in both, so it is kept as
  an abstract function f of a column block's four operands (wArr: the array whose column block j is f of the j-th
  column blocks of V, A, m and of B whole).  The second stage differs: one program takes each entry's contraction over
  all 2048 columns at once (yArr), the other adds up four partial contractions of 512 columns each into a zeroed
  accumulator (yTiled).  On the extended reals addition is commutative and associative with no exception, so the two
  agree everywhere (yTiled_eq): the full sum is the sum over the four chunks of the chunk's sum.
-/
import Idealize.ShloMosaic.Lib.ValueIdx
import Idealize.ShloMosaic.PureOps.Ideal.Laws
import Mathlib.Algebra.BigOperators.Fin
import proofs.«127857_g2000709426913694_pallasbulk_956_2_alg».proof.Proof.LibSums

noncomputable section

open scoped BigOperators

namespace Cert.Spec

open Idealize.ShloMosaic Idealize.ShloMosaic.ValueIdx

/-- The j-th block of 512 columns of an array with r rows and 2048 columns. -/
def colBlk {φ : FTy} (r : Nat) (X : FVec Ideal ⟨2, ![r, 2048]⟩ φ) (j : Fin 4) : FVec Ideal ⟨2, ![r, 512]⟩ φ :=
  fun y => X (ix2 (⟨(y 0).val, idx2_lt0 y⟩ : Fin r)
    (⟨512 * j.val + (y 1).val, by have := idx2_lt1 y; have := j.isLt; omega⟩ : Fin 2048))

/-- The array whose column block j is f of B and of the j-th column blocks of A, V and M. -/
def wArr {φ : FTy}
    (f : FVec Ideal ⟨2, ![2048, 16]⟩ .f32 → FVec Ideal ⟨2, ![16, 512]⟩ .f32 → FVec Ideal ⟨2, ![2048, 512]⟩ .f32
      → FVec Ideal ⟨2, ![1, 512]⟩ .f32 → FVec Ideal ⟨2, ![2048, 512]⟩ φ)
    (V : FVec Ideal ⟨2, ![2048, 2048]⟩ .f32) (B : FVec Ideal ⟨2, ![2048, 16]⟩ .f32)
    (A : FVec Ideal ⟨2, ![16, 2048]⟩ .f32) (M : FVec Ideal ⟨2, ![1, 2048]⟩ .f32) : FVec Ideal ⟨2, ![2048, 2048]⟩ φ :=
  fun i =>
    let j : Fin 4 := ⟨(i 1).val / 512, by have := idx2_lt1 i; omega⟩
    f B (colBlk 16 A j) (colBlk 2048 V j) (colBlk 1 M j)
      (ix2 (⟨(i 0).val, idx2_lt0 i⟩ : Fin 2048) (⟨(i 1).val % 512, Nat.mod_lt _ (by decide)⟩ : Fin 512))

/-- wArr inside column block j, at the block's own coordinates. -/
theorem wArr_blk {φ : FTy}
    (f : FVec Ideal ⟨2, ![2048, 16]⟩ .f32 → FVec Ideal ⟨2, ![16, 512]⟩ .f32 → FVec Ideal ⟨2, ![2048, 512]⟩ .f32
      → FVec Ideal ⟨2, ![1, 512]⟩ .f32 → FVec Ideal ⟨2, ![2048, 512]⟩ φ)
    (V : FVec Ideal ⟨2, ![2048, 2048]⟩ .f32) (B : FVec Ideal ⟨2, ![2048, 16]⟩ .f32)
    (A : FVec Ideal ⟨2, ![16, 2048]⟩ .f32) (M : FVec Ideal ⟨2, ![1, 2048]⟩ .f32)
    (j : Fin 4) (y : (⟨2, ![2048, 512]⟩ : Shape).Idx) (i : (⟨2, ![2048, 2048]⟩ : Shape).Idx)
    (h0 : (i 0).val = (y 0).val) (h1 : (i 1).val = 512 * j.val + (y 1).val) :
    wArr f V B A M i = f B (colBlk 16 A j) (colBlk 2048 V j) (colBlk 1 M j) y := by
  unfold wArr
  dsimp only
  -- the block number: (512·j + y₁) / 512 = j since y₁ < 512
  have hj : (⟨(i 1).val / 512, by have := idx2_lt1 i; omega⟩ : Fin 4) = j :=
    Fin.ext (by show (i 1).val / 512 = j.val; have := idx2_lt1 y; omega)
  -- the local index: row i₀ = y₀, column (512·j + y₁) % 512 = y₁
  have hy : ix2 (⟨(i 0).val, idx2_lt0 i⟩ : Fin 2048) (⟨(i 1).val % 512, Nat.mod_lt _ (by decide)⟩ : Fin 512) = y := by
    funext ax
    apply Fin.ext
    match ax with
    | ⟨0, _⟩ => exact h0
    | ⟨1, _⟩ =>
      show (i 1).val % 512 = (y 1).val
      have := idx2_lt1 y
      omega
  rw [hj, hy]

/-- y = x·Wᵀ + b, each entry's contraction taken over all 2048 columns at once. -/
def yArr {φ : FTy} (X : FVec Ideal ⟨2, ![4096, 2048]⟩ .f32) (W : FVec Ideal ⟨2, ![2048, 2048]⟩ φ)
    (b : FVec Ideal ⟨2, ![1, 2048]⟩ .f32) : FVec Ideal ⟨2, ![4096, 2048]⟩ .f32 :=
  fun i => (∑ k : Fin 2048, X (ix2 (⟨(i 0).val, idx2_lt0 i⟩ : Fin 4096) k) * W (ix2 (⟨(i 1).val, idx2_lt1 i⟩ : Fin 2048) k))
    + b (ix2 (0 : Fin 1) (⟨(i 1).val, idx2_lt1 i⟩ : Fin 2048))

/-- The q-th partial contraction (columns 512·q … 512·q + 511) of entry (r, d). -/
def chunk {φ : FTy} (X : FVec Ideal ⟨2, ![4096, 2048]⟩ .f32) (W : FVec Ideal ⟨2, ![2048, 2048]⟩ φ)
    (r : Fin 4096) (d : Fin 2048) (q : Fin 4) : EReal :=
  ∑ k : Fin 512, X (ix2 r (LibSums.flat (N := 2048) (a := 4) (b := 512) rfl q k)) * W (ix2 d (LibSums.flat (N := 2048) (a := 4) (b := 512) rfl q k))

/-- The same entry as the tiled program leaves it: the four partial contractions added one after the other into a
    zeroed accumulator, then the bias. -/
def yTiled {φ : FTy} (X : FVec Ideal ⟨2, ![4096, 2048]⟩ .f32) (W : FVec Ideal ⟨2, ![2048, 2048]⟩ φ)
    (b : FVec Ideal ⟨2, ![1, 2048]⟩ .f32) : FVec Ideal ⟨2, ![4096, 2048]⟩ .f32 :=
  fun i =>
    let r : Fin 4096 := ⟨(i 0).val, idx2_lt0 i⟩
    let d : Fin 2048 := ⟨(i 1).val, idx2_lt1 i⟩
    ((((0 + chunk X W r d 0) + chunk X W r d 1) + chunk X W r d 2) + chunk X W r d 3) + b (ix2 (0 : Fin 1) d)

/-- The two second stages agree at every extended-real input: a sum over 2048 columns is the sum over the four chunks
    of the chunk's sum, and addition on the extended reals is associative with zero neutral. -/
theorem yTiled_eq {φ : FTy} (X : FVec Ideal ⟨2, ![4096, 2048]⟩ .f32) (W : FVec Ideal ⟨2, ![2048, 2048]⟩ φ)
    (b : FVec Ideal ⟨2, ![1, 2048]⟩ .f32) : yTiled X W b = yArr X W b := by
  funext i
  unfold yTiled yArr chunk
  dsimp only
  -- the full contraction split into four chunks of 512 columns, the outer sum written out, the leading zero dropped
  rw [LibSums.sum_tiles (N := 2048) (a := 4) (b := 512) rfl, Fin.sum_univ_four, zero_add]

end Cert.Spec

end
-- ==== Proof.KerValue0.lean ====
/-
  What the kernel's first region leaves in its output array, over the extended reals.

  At grid point t the pipeline writes back the column block t (512 columns) of W': the body's one payload of B whole and
  of the column blocks t of A, V and m. The four blocks tile the 2048 columns, so the array ends holding, at every index,
  that payload of the index's own column block read at the index's place inside the block: Spec.wArr.
-/
import proofs.«127857_g2000709426913694_pallasbulk_956_2_alg».proof.Proof.Gen.KernelIdeal.Frame
import proofs.«127857_g2000709426913694_pallasbulk_956_2_alg».proof.Proof.Spec
import Idealize.ShloMosaic.Lib.Pipeline.Value
import Idealize.ShloMosaic.Lib.ValueLayout

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-! The auxiliary facts of this region live in their own namespace. -/
namespace Region0

variable (V : (c : Dev nD) → (b : Ref sig .tc) → Buf (Elt Ideal) ((c : Thread nD τ).loc b)) (c : Dev nD)

/-- The zero offset of a whole-buffer access, as the constant function. -/
theorem hz : (![0, 0] : Fin 2 → Nat) = fun _ => 0 := funext fun a => by fin_cases a <;> rfl

/-- The grid has four points. -/
theorem lt4 (t : Fin cfg0.N) : t.val < 4 := by
  have h := t.isLt
  have e : cfg0.N = 4 := N_0
  omega

/-- The five index maps over the grid: every window sits at block row 0; B's window stays at block column 0, the
    other four move to block column t. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- B's block at every point is B whole. -/
theorem blk_B (t : Fin cfg0.N) : iblk0 (F := Ideal) V c 1 t = V c main_arg2 := by
  obtain ⟨-, -, e0, e1, -⟩ := idx_facts t
  funext y
  show V c main_arg2 (((cfg0.win 1).blk t).view.emb y) = V c main_arg2 y
  refine congrArg _ ?_
  funext a; apply Fin.ext
  match a with
  | ⟨0, _⟩ => show win0_1.index t (0 : Fin 2) * 2048 + 1 * (y 0).val = (y 0).val; omega
  | ⟨1, _⟩ => show win0_1.index t (1 : Fin 2) * 16 + 1 * (y 1).val = (y 1).val; omega

/-- A's block at point t is its column block t. -/
theorem blk_A (t : Fin cfg0.N) : iblk0 (F := Ideal) V c 2 t = Cert.Spec.colBlk (φ := .f32) 16 (V c main_arg3) ⟨t.val, lt4 t⟩ := by
  obtain ⟨-, -, -, -, e0, e1, -⟩ := idx_facts t
  funext y
  show V c main_arg3 (((cfg0.win 2).blk t).view.emb y) = _
  refine congrArg (V c main_arg3) ?_
  funext a; apply Fin.ext
  match a with
  | ⟨0, _⟩ => show win0_2.index t (0 : Fin 2) * 16 + 1 * (y 0).val = (y 0).val; omega
  | ⟨1, _⟩ => show win0_2.index t (1 : Fin 2) * 512 + 1 * (y 1).val = 512 * t.val + (y 1).val; omega

/-- V's block at point t is its column block t. -/
theorem blk_V (t : Fin cfg0.N) : iblk0 (F := Ideal) V c 0 t = Cert.Spec.colBlk (φ := .f32) 2048 (V c main_arg1) ⟨t.val, lt4 t⟩ := by
  obtain ⟨e0, e1, -⟩ := idx_facts t
  funext y
  show V c main_arg1 (((cfg0.win 0).blk t).view.emb y) = _
  refine congrArg (V c main_arg1) ?_
  funext a; apply Fin.ext
  match a with
  | ⟨0, _⟩ => show win0_0.index t (0 : Fin 2) * 2048 + 1 * (y 0).val = (y 0).val; omega
  | ⟨1, _⟩ => show win0_0.index t (1 : Fin 2) * 512 + 1 * (y 1).val = 512 * t.val + (y 1).val; omega

/-- m's block at point t is its column block t. -/
theorem blk_M (t : Fin cfg0.N) : iblk0 (F := Ideal) V c 3 t = Cert.Spec.colBlk (φ := .f32) 1 (V c main_arg4) ⟨t.val, lt4 t⟩ := by
  obtain ⟨-, -, -, -, -, -, e0, e1, -⟩ := idx_facts t
  funext y
  show V c main_arg4 (((cfg0.win 3).blk t).view.emb y) = _
  refine congrArg (V c main_arg4) ?_
  funext a; apply Fin.ext
  match a with
  | ⟨0, _⟩ => show win0_3.index t (0 : Fin 2) * 1 + 1 * (y 0).val = (y 0).val; omega
  | ⟨1, _⟩ => show win0_3.index t (1 : Fin 2) * 512 + 1 * (y 1).val = 512 * t.val + (y 1).val; omega

/-- The specification's array for this region: the payload, kept abstract, of B and the column blocks. -/
abbrev G : FVec Ideal ⟨2, ![2048, 2048]⟩ .bf16 :=
  Cert.Spec.wArr (fun a b x d => k0_pay1 (F := Ideal) a b x d) (V c main_arg1) (V c main_arg2) (V c main_arg3) (V c main_arg4)

/-- What point t writes back is column block t of the specification's array. -/
theorem flushed_eq (t : Fin cfg0.N) :
    (dat0 (F := Ideal) V c).flushed 4 t = ((cfg0.win 4).blk t).view.read (Elt Ideal) (G V c) := by
  show (cfg0.win 4).cut (grid0.coords t) ((dat0 V c).after 4 t) = _
  rw [after0_4]
  unfold out0_4
  rw [View.canon_unit_zero hz]
  simp only [View.ld_unit_zero (S := S2048x16) hz, View.ld_unit_zero (S := S16x512) hz,
    View.ld_unit_zero (S := S2048x512) hz, View.ld_unit_zero (S := S1x512) hz]
  rw [blk_B, blk_A, blk_V, blk_M]
  obtain ⟨-, -, -, -, -, -, -, -, e0, e1⟩ := idx_facts t
  funext y
  -- the entry of the array that local index y of block t names: row y₀, column 512·t + y₁
  have h0 : ((((cfg0.win 4).blk t).view.emb y : S2048x2048.Idx) 0).val = ((y : S2048x512.Idx) 0).val := by
    show win0_4.index t (0 : Fin 2) * 2048 + 1 * (y 0).val = (y 0).val; omega
  have h1 : ((((cfg0.win 4).blk t).view.emb y : S2048x2048.Idx) 1).val = 512 * t.val + ((y : S2048x512.Idx) 1).val := by
    show win0_4.index t (1 : Fin 2) * 512 + 1 * (y 1).val = 512 * t.val + (y 1).val; omega
  exact (Cert.Spec.wArr_blk (fun a b x d => k0_pay1 (F := Ideal) a b x d) (V c main_arg1) (V c main_arg2) (V c main_arg3)
    (V c main_arg4) ⟨t.val, lt4 t⟩ y (((cfg0.win 4).blk t).view.emb y) h0 h1).symm

/-- An index of the array is in point t's block iff each coordinate is in the block's range on its axis. -/
theorem mem_blk (t : Fin cfg0.N) (i : S2048x2048.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v1).slice (win0_4.rect t)).set ↔ _
  rw [View.set_slice_whole, Rect.mem_set_unit]
  exact Iff.rfl

end Region0

/-- Region 0's output array after the region: W' as the abstract block function of the region's entry arrays. -/
theorem kW (V : (c : Dev nD) → (b : Ref sig .tc) → Buf (Elt Ideal) ((c : Thread nD τ).loc b)) (c : Dev nD) :
    (dat0 (F := Ideal) V c).arrAt 4 cfg0.N
      = Cert.Spec.wArr (fun a b x d => k0_pay1 (F := Ideal) a b x d) (V c main_arg1) (V c main_arg2) (V c main_arg3) (V c main_arg4) := by
  refine (dat0 (F := Ideal) V c).arrAt_eq_of_cover 4 (Region0.G V c) (fun t _ => Region0.flushed_eq V c t) (fun i => ?_)
  -- index i lies in the block of the point numbered by its column block
  have hi1 : (i 1).val < 2048 := idx2_lt1 (n0 := 2048) (n1 := 2048) i
  have hi0 : (i 0).val < 2048 := idx2_lt0 (n0 := 2048) (n1 := 2048) i
  let t : Fin cfg0.N := ⟨(i 1).val / 512, by have e : cfg0.N = 4 := N_0; omega⟩
  obtain ⟨-, -, -, -, -, -, -, -, e0, e1⟩ := Region0.idx_facts t
  refine ⟨t, flush0_4 t, ?_⟩
  rw [Region0.mem_blk]
  intro a
  match a with
  | ⟨0, _⟩ => show win0_4.index t (0 : Fin 2) * 2048 ≤ (i 0).val ∧ (i 0).val < win0_4.index t (0 : Fin 2) * 2048 + 2048; omega
  | ⟨1, _⟩ =>
    show win0_4.index t (1 : Fin 2) * 512 ≤ (i 1).val ∧ (i 1).val < win0_4.index t (1 : Fin 2) * 512 + 512
    have ht : t.val = (i 1).val / 512 := rfl
    omega

end Cert.KernelIdeal.Hand

end
-- ==== Proof.LibMatmulNT.lean ====
/-
  A MATRIX PRODUCT AGAINST A TRANSPOSED RIGHT FACTOR, READ AT AN ENTRY — a general lemma file (no program is named here).

  For an m×k block A and an n×k block B, the product that contracts the SECOND axis of both (A·Bᵀ), accumulated into
  the zero block, reads at entry (a, b) the sum over the contracted coordinate c of A[a, c] · B[b, c]. At the ideal
  values (extended reals); any extents, any two float formats.
-/
import Idealize.ShloMosaic.PureOps.Ideal.Laws
import Idealize.ShloMosaic.Lib.ValueIdx

noncomputable section

open scoped BigOperators

namespace MatmulNT

open Idealize.ShloMosaic Idealize.ShloMosaic.ValueIdx

variable {m k n : Nat}

/-- The dimension numbers of A·Bᵀ for an m×k and an n×k block: contract axis 1 of both; the rows of each survive. -/
abbrev rowRow (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- The left factor's index at entry (a, b) and contraction position c: row a (the surviving axis), column c. -/
theorem rowRow_lhsIdx (w : DotDims.WF ⟨2, ![m, k]⟩ ⟨2, ![n, k]⟩ ⟨2, ![m, n]⟩ [1] [1] [0] [0] [] [])
    (a : Fin m) (b : Fin n) (c : Fin k) :
    (rowRow w).lhsIdx (ix2 a b) ((contrEquiv1 (rowRow w) k rfl rfl).symm c) = ix2 a c := by
  have c2 := contrEquiv1_symm_val (rowRow w) k rfl rfl c
  funext ax
  apply Fin.ext
  match ax with
  | ⟨0, _⟩ => simp [DotDims.lhsIdx]; rfl
  | ⟨1, _⟩ => simp [DotDims.lhsIdx]; exact c2

/-- The right factor's index at entry (a, b) and contraction position c: row b (its surviving axis), column c. -/
theorem rowRow_rhsIdx (w : DotDims.WF ⟨2, ![m, k]⟩ ⟨2, ![n, k]⟩ ⟨2, ![m, n]⟩ [1] [1] [0] [0] [] [])
    (a : Fin m) (b : Fin n) (c : Fin k) :
    (rowRow w).rhsIdx (ix2 a b) ((contrEquiv1 (rowRow w) k rfl rfl).symm c) = ix2 b c := by
  have c2 := contrEquiv1_symm_val (rowRow w) k rfl rfl c
  funext ax
  apply Fin.ext
  match ax with
  | ⟨0, _⟩ => simp [DotDims.rhsIdx]; rfl
  | ⟨1, _⟩ => simp [DotDims.rhsIdx]; exact c2

/-- The product into the zero block, at entry (a, b): the sum over c of A[a, c] · B[b, c]. -/
theorem matmul_zero_apply {φ₁ φ₂ : FTy} (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (rowRow w) prec A B (constant (F := Ideal) ⟨2, ![m, n]⟩ .f32 0x00000000#32) (ix2 a b)
      = ∑ c : Fin k, A (ix2 a c) * B (ix2 b c) := by
  rw [Ideal.matmul_constant_zero_apply, ← Equiv.sum_comp (contrEquiv1 (rowRow w) k rfl rfl).symm]
  refine Finset.sum_congr rfl fun c _ => ?_
  rw [rowRow_lhsIdx, rowRow_rhsIdx]

end MatmulNT

end
-- ==== Proof.KerValue.lean ====
/-
  What the kernel's program leaves in its result buffer, over the extended reals.

  Region 0 writes back, at grid point t, the column block t of W' — the body's one payload of B whole and of the
  column blocks t of A, V and m —, and the four blocks tile the array: the array ends holding Spec.wArr of the region's
  entry arrays (kW). Region 1 writes back, at grid point t, the block of rows 512·t … 512·t + 511 of y, each entry the
  contraction over all 2048 columns of the x row with the W' row, plus the bias entry: the array ends holding Spec.yArr
  (kY). Read through the three reshapes of @main, the result buffer ends at the reshape of yArr of the reshaped x, of
  wArr of the arguments and of the reshaped bias (kResult).
-/
import proofs.«127857_g2000709426913694_pallasbulk_956_2_alg».proof.Proof.KerRun
import proofs.«127857_g2000709426913694_pallasbulk_956_2_alg».proof.Proof.KerValue0
import proofs.«127857_g2000709426913694_pallasbulk_956_2_alg».proof.Proof.Spec
import proofs.«127857_g2000709426913694_pallasbulk_956_2_alg».proof.Proof.LibMatmulNT
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-- The offsets of a rectangle at the origin, spelt as the constant function. -/
theorem originOffsets : (![0, 0] : Fin 2 → Nat) = fun _ => 0 := funext fun a => by fin_cases a <;> rfl

/-- Region 1's block indices over its 8 grid points: the x window and the output window move down the rows with the
    point; the W' window and the bias window stay at the origin. -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's payload at entry (p, q): row p of the x block contracted with row q of W' over all 2048 columns, plus
    entry q of the bias row. The format change of the left factor is the identity on the extended reals, the three
    casts are to the operand's own shape, and the bias row is repeated down the 512 rows. -/
theorem payload1_apply (x0 : FVec Ideal S512x2048 .f32) (x1 : FVec Ideal S2048x2048 .bf16) (x2 : FVec Ideal S1x2048 .f32)
    (p : Fin 512) (q : Fin 2048) :
    k1_pay1 (F := Ideal) x0 x1 x2 (ix2 p q) = (∑ k : Fin 2048, x0 (ix2 p k) * x1 (ix2 q k)) + x2 (ix2 (0 : Fin 1) q) := by
  unfold k1_pay1
  rw [shapeCast_self, shapeCast_self, shapeCast_self, addf_apply]
  refine congrArg₂ (· + ·) ?_ ?_
  · exact MatmulNT.matmul_zero_apply (m := 512) (k := 2048) (n := 2048) dot_S512x2048_S2048x2048_S512x2048_1_1_0_0_n_n.wf none
      (truncf .bf16 x0 bitsLt_bf16_f32) x1 p q
  · exact broadcastTo_apply x2 broadcasts_S1x2048_S512x2048 (ix2 p q) (ix2 (0 : Fin 1) q)
      (fun a => by match a with | ⟨0, _⟩ => rfl | ⟨1, _⟩ => rfl)

/-- Entry y of the body's payload against entry i of y = x·W'ᵀ + bias, when i is y's place in the array: the same column,
    and the x block's row read where the array's row is. -/
theorem payload1_eq_yArr (x0 : FVec Ideal S512x2048 .f32) (X : FVec Ideal S4096x2048 .f32) (W : FVec Ideal S2048x2048 .bf16)
    (b : FVec Ideal S1x2048 .f32) (y : S512x2048.Idx) (i : S4096x2048.Idx) (h1 : (i 1).val = (y 1).val)
    (hx : ∀ k : Fin 2048, x0 (ix2 (⟨(y 0).val, idx2_lt0 y⟩ : Fin 512) k) = X (ix2 (⟨(i 0).val, idx2_lt0 i⟩ : Fin 4096) k)) :
    k1_pay1 (F := Ideal) x0 W b y = Cert.Spec.yArr (φ := .bf16) X W b i := by
  refine (congrArg (k1_pay1 (F := Ideal) x0 W b) (eq_ix2 y)).trans ?_
  refine (payload1_apply x0 W b (⟨(y 0).val, idx2_lt0 y⟩ : Fin 512) (⟨(y 1).val, idx2_lt1 y⟩ : Fin 2048)).trans ?_
  unfold Cert.Spec.yArr
  have hq : (⟨(i 1).val, idx2_lt1 i⟩ : Fin 2048) = ⟨(y 1).val, idx2_lt1 y⟩ := Fin.ext h1
  rw [hq]
  exact congrArg₂ (· + ·) (Finset.sum_congr rfl fun k _ => by rw [hx k]) rfl

section Region1

variable (V : (c : Dev nD) → (b : Ref sig .tc) → Buf (Elt Ideal) ((c : Thread nD τ).loc b)) (c : Dev nD)

/-- The x window's block at point t is rows 512·t … 512·t + 511 of x, every column. -/
theorem xBlock_apply (t : Fin cfg1.N) (y : S512x2048.Idx) (k : S4096x2048.Idx)
    (hk0 : (k 0).val = 512 * t.val + (y 0).val) (hk1 : (k 1).val = (y 1).val) :
    (iblk1 (F := Ideal) V c 0 t : FVec Ideal S512x2048 .f32) y = (V c main_v0 : FVec Ideal S4096x2048 .f32) k := by
  obtain ⟨e0, e1, -⟩ := blockIndex1 t
  unfold iblk1
  rw [View.read_apply]
  show V c main_v0 _ = V c main_v0 _
  congr 1
  funext a
  apply Fin.ext
  match a with
  | ⟨0, _⟩ => show win1_0.index t 0 * 512 + 1 * (y 0).val = (k 0).val; rw [e0, hk0]; omega
  | ⟨1, _⟩ => show win1_0.index t 1 * 2048 + 1 * (y 1).val = (k 1).val; rw [e1, hk1]; omega

/-- The W' window's block is the whole array at every point: block index (0, 0), the block's extents the array's. -/
theorem wBlock_eq (t : Fin cfg1.N) :
    (iblk1 (F := Ideal) V c 1 t : FVec Ideal S2048x2048 .bf16) = (V c main_v1 : FVec Ideal S2048x2048 .bf16) := by
  obtain ⟨-, -, e0, e1, -⟩ := blockIndex1 t
  funext y
  unfold iblk1
  rw [View.read_apply]
  show V c main_v1 _ = V c main_v1 y
  congr 1
  funext a
  apply Fin.ext
  match a with
  | ⟨0, _⟩ => show win1_1.index t 0 * 2048 + 1 * (y 0).val = (y 0).val; rw [e0]; omega
  | ⟨1, _⟩ => show win1_1.index t 1 * 2048 + 1 * (y 1).val = (y 1).val; rw [e1]; omega

/-- The bias window's block is the whole row at every point. -/
theorem biasBlock_eq (t : Fin cfg1.N) :
    (iblk1 (F := Ideal) V c 2 t : FVec Ideal S1x2048 .f32) = (V c main_v2 : FVec Ideal S1x2048 .f32) := by
  obtain ⟨-, -, -, -, e0, e1, -⟩ := blockIndex1 t
  funext y
  unfold iblk1
  rw [View.read_apply]
  show V c main_v2 _ = V c main_v2 y
  congr 1
  funext a
  apply Fin.ext
  match a with
  | ⟨0, _⟩ => show win1_2.index t 0 * 1 + 1 * (y 0).val = (y 0).val; rw [e0]; omega
  | ⟨1, _⟩ => show win1_2.index t 1 * 2048 + 1 * (y 1).val = (y 1).val; rw [e1]; omega

/-- What point t writes back is its block — rows 512·t … 512·t + 511 — of y = x·W'ᵀ + bias of the region's entry arrays. -/
theorem flushed1_eq (t : Fin cfg1.N) :
    (dat1 (F := Ideal) V c).flushed 3 t
      = ((cfg1.win 3).blk t).view.read (Elt Ideal) (Cert.Spec.yArr (φ := .bf16) (V c main_v0) (V c main_v1) (V c main_v2)) := by
  show (cfg1.win 3).cut (grid1.coords t) ((dat1 V c).after 3 t) = _
  rw [after1_3]
  unfold out1_3
  rw [View.canon_unit_zero originOffsets]
  simp only [View.ld_unit_zero (S := S512x2048) originOffsets, View.ld_unit_zero (S := S2048x2048) originOffsets,
    View.ld_unit_zero (S := S1x2048) originOffsets]
  obtain ⟨-, -, -, -, -, -, e0, e1⟩ := blockIndex1 t
  funext y
  show k1_pay1 (F := Ideal) (iblk1 V c 0 t) (iblk1 V c 1 t) (iblk1 V c 2 t) y
    = Cert.Spec.yArr (φ := .bf16) (V c main_v0) (V c main_v1) (V c main_v2) (((cfg1.win 3).blk t).view.emb y)
  rw [wBlock_eq V c t, biasBlock_eq V c t]
  refine payload1_eq_yArr (iblk1 V c 0 t) (V c main_v0) (V c main_v1) (V c main_v2) y (((cfg1.win 3).blk t).view.emb y) ?_ ?_
  · show win1_3.index t 1 * 2048 + 1 * (y 1).val = (y 1).val
    rw [e1]; omega
  · intro k
    refine xBlock_apply V c t _ _ ?_ rfl
    show win1_3.index t 0 * 512 + 1 * (y 0).val = 512 * t.val + (y 0).val
    rw [e0]; omega

/-- An index of the array lies in point t's block iff each coordinate lies in the block's range on its axis. -/
theorem mem_block1 (t : Fin cfg1.N) (i : S4096x2048.Idx) :
    i ∈ ((cfg1.win 3).blk t).view.set
      ↔ ∀ a : Fin 2, win1_3.index t a * S512x2048.size a ≤ (i a).val ∧ (i a).val < win1_3.index t a * S512x2048.size a + S512x2048.size a := by
  show i ∈ ((View.whole main_v3).slice (win1_3.rect t)).set ↔ _
  rw [View.set_slice_whole, Rect.mem_set_unit]
  exact Iff.rfl

/-- Every index of the array lies in the block of the point its row falls under: row r is written at point r / 512. -/
theorem cover1 (i : S4096x2048.Idx) :
    ∃ t : Fin cfg1.N, (cfg1.win 3).flush t = true ∧ i ∈ ((cfg1.win 3).blk t).view.set := by
  have hi0 : (i 0).val < 4096 := idx2_lt0 i
  have hi1 : (i 1).val < 2048 := idx2_lt1 i
  have hN : cfg1.N = 8 := rfl
  let t : Fin cfg1.N := ⟨(i 0).val / 512, by rw [hN]; omega⟩
  obtain ⟨-, -, -, -, -, -, e0, e1⟩ := blockIndex1 t
  refine ⟨t, flush1_3 t, ?_⟩
  rw [mem_block1]
  intro a
  match a with
  | ⟨0, _⟩ =>
    show win1_3.index t 0 * 512 ≤ (i 0).val ∧ (i 0).val < win1_3.index t 0 * 512 + 512
    rw [e0]
    show (i 0).val / 512 * 512 ≤ (i 0).val ∧ (i 0).val < (i 0).val / 512 * 512 + 512
    omega
  | ⟨1, _⟩ =>
    show win1_3.index t 1 * 2048 ≤ (i 1).val ∧ (i 1).val < win1_3.index t 1 * 2048 + 2048
    rw [e1]; omega

end Region1

/-- Region 1's output array after the region: y with each contraction taken whole. -/
theorem kY (V : (c : Dev nD) → (b : Ref sig .tc) → Buf (Elt Ideal) ((c : Thread nD τ).loc b)) (c : Dev nD) :
    (dat1 (F := Ideal) V c).arrAt 3 cfg1.N = Cert.Spec.yArr (φ := .bf16) (V c main_v0) (V c main_v1) (V c main_v2) :=
  (dat1 (F := Ideal) V c).arrAt_eq_of_cover 3 (Cert.Spec.yArr (φ := .bf16) (V c main_v0) (V c main_v1) (V c main_v2))
    (fun t _ => flushed1_eq V c t) cover1

section Run

variable (m : (ℓ : Loc nD τ sig) → Buf (Elt Ideal) ℓ) (ρ : Dev nD → PrngReg) (c : Dev nD)

/-- The last reshape: the result buffer is region 1's output array read as 8 slabs of 512 rows. -/
theorem result_eq : W5 m ρ c (Proc.devRef .tc main_v4)
    = shapeCast S8x512x2048 (W4 m ρ c (Proc.devRef .tc main_v3)) Facts₀.shapeCasts_S4096x2048_S8x512x2048 := by
  show StableHlo.after hostOps2 (W4 m ρ c) (Proc.devRef .tc main_v4) = _
  after_results
  rfl

/-- At region 0's entry every buffer other than the reshaped x is as launched: the first stretch writes that one only. -/
theorem entry0_of_ne (r : Ref sig .tc) (h : r ≠ main_v0) : V1 m ρ c r = m ((c : Thread nD τ).loc r) := by
  show StableHlo.after hostOps0 (W0 m ρ c) (Proc.devRef .tc r) = _
  simp only [StableHlo.after_cons, StableHlo.after_nil]
  rw [StableHlo.reshape_result_ne (h := h)]

/-- At region 1's entry the x array is the reshape of argument 0: the first stretch writes it, region 0 and the second
    stretch leave it. -/
theorem entry1_x : V3 m ρ c main_v0
    = shapeCast S4096x2048 (m ((c : Thread nD τ).loc main_arg0)) Facts₀.shapeCasts_S8x512x2048_S4096x2048 := by
  calc V3 m ρ c main_v0
    _ = W2 m ρ c (Proc.devRef .tc main_v0) := by
        show StableHlo.after hostOps1 (W2 m ρ c) (Proc.devRef .tc main_v0) = _
        after_results
    _ = W1 m ρ c (Proc.devRef .tc main_v0) := W2_of_ne m ρ c main_v0 (by decide)
    _ = _ := by
        show StableHlo.after hostOps0 (W0 m ρ c) (Proc.devRef .tc main_v0) = _
        after_results
        rfl

/-- At region 1's entry the W' array is what region 0 left: W' of the arguments as launched. -/
theorem entry1_w : V3 m ρ c main_v1
    = Cert.Spec.wArr (φ := .bf16) (fun a b x d => k0_pay1 (F := Ideal) a b x d) (m ((c : Thread nD τ).loc main_arg1))
        (m ((c : Thread nD τ).loc main_arg2)) (m ((c : Thread nD τ).loc main_arg3)) (m ((c : Thread nD τ).loc main_arg4)) := by
  calc V3 m ρ c main_v1
    _ = W2 m ρ c (Proc.devRef .tc main_v1) := by
        show StableHlo.after hostOps1 (W2 m ρ c) (Proc.devRef .tc main_v1) = _
        after_results
    _ = (dat0 (F := Ideal) (V1 m ρ) c).arrAt 4 cfg0.N := W2_arr m ρ c 4
    _ = Cert.Spec.wArr (φ := .bf16) (fun a b x d => k0_pay1 (F := Ideal) a b x d) (V1 m ρ c main_arg1) (V1 m ρ c main_arg2)
          (V1 m ρ c main_arg3) (V1 m ρ c main_arg4) := kW (V1 m ρ) c
    _ = _ := by
        rw [entry0_of_ne m ρ c main_arg1 (by decide), entry0_of_ne m ρ c main_arg2 (by decide),
          entry0_of_ne m ρ c main_arg3 (by decide), entry0_of_ne m ρ c main_arg4 (by decide)]

/-- At region 1's entry the bias row is the reshape of argument 5, which nothing before it writes. -/
theorem entry1_bias : V3 m ρ c main_v2
    = shapeCast S1x2048 (m ((c : Thread nD τ).loc main_arg5)) Facts₀.shapeCasts_S2048_S1x2048 := by
  calc V3 m ρ c main_v2
    _ = shapeCast S1x2048 (W2 m ρ c (Proc.devRef .tc main_arg5)) Facts₀.shapeCasts_S2048_S1x2048 := by
        show StableHlo.after hostOps1 (W2 m ρ c) (Proc.devRef .tc main_v2) = _
        after_results
        rfl
    _ = shapeCast S1x2048 (W1 m ρ c (Proc.devRef .tc main_arg5)) Facts₀.shapeCasts_S2048_S1x2048 := by
        rw [W2_of_ne m ρ c main_arg5 (by decide)]
    _ = _ := by
        rw [show W1 m ρ c (Proc.devRef .tc main_arg5) = m ((c : Thread nD τ).loc main_arg5) from
          entry0_of_ne m ρ c main_arg5 (by decide)]

end Run

/-- The result buffer at the end of the run, as a function of the argument buffers at launch. -/
theorem kResult (m : (ℓ : Loc nD τ sig) → Buf (Elt Ideal) ℓ) (ρ : Dev nD → PrngReg) (c : Dev nD) :
    W5 m ρ c (Proc.devRef .tc main_v4)
      = shapeCast S8x512x2048
          (Cert.Spec.yArr (φ := .bf16) (shapeCast S4096x2048 (m ((c : Thread nD τ).loc main_arg0)) Facts₀.shapeCasts_S8x512x2048_S4096x2048)
            (Cert.Spec.wArr (φ := .bf16) (fun a b x d => k0_pay1 (F := Ideal) a b x d) (m ((c : Thread nD τ).loc main_arg1)) (m ((c : Thread nD τ).loc main_arg2))
              (m ((c : Thread nD τ).loc main_arg3)) (m ((c : Thread nD τ).loc main_arg4)))
            (shapeCast S1x2048 (m ((c : Thread nD τ).loc main_arg5)) Facts₀.shapeCasts_S2048_S1x2048))
          Facts₀.shapeCasts_S4096x2048_S8x512x2048 := by
  rw [result_eq, show W4 m ρ c (Proc.devRef .tc main_v3) = (dat1 (F := Ideal) (V3 m ρ) c).arrAt 3 cfg1.N from W4_arr m ρ c 3,
    kY (V3 m ρ) c, entry1_x, entry1_w, entry1_bias]

end Cert.KernelIdeal.Hand

end
-- ==== Proof.RefRegion0.lean ====
/-
  The reference program's first pallas region (the normalised weight W'), as the pipeline sees it, at any float
  instance and at any contents V of the core's buffers when the region is entered.

  At grid point t (a block of 512 columns) the body reads the column block t of V, A and m and the whole of B, and
  stores ONE value into the output block: (V + B·A) · (m · rsqrt(column sums of (V + B·A)²)), the skeleton's payload of
  the four loaded blocks. So the output window's staging buffer after the body is that payload of the input blocks
  (out0_4), every input buffer still holds its block, and the class's invariant (the scoped rest and the generator
  register) is untouched. These are the proof data dat0 and the body obligation of the region.
-/
import proofs.«127857_g2000709426913694_pallasbulk_956_2_alg».proof.Proof.Gen.ReferenceIdeal.Launch
import proofs.«127857_g2000709426913694_pallasbulk_956_2_alg».proof.Proof.Gen.ReferenceIdeal.Skeleton
import proofs.«127857_g2000709426913694_pallasbulk_956_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x16 := Rect.unit (s := S2048x16) ![0, 0] S2048x16.size inb_S2048x16_S2048x16_0_0
abbrev r0_1 : Rect S16x512 := Rect.unit (s := S16x512) ![0, 0] S16x512.size inb_S16x512_S16x512_0_0
abbrev r0_2 : Rect S2048x512 := Rect.unit (s := S2048x512) ![0, 0] S2048x512.size inb_S2048x512_S2048x512_0_0
abbrev r0_3 : Rect S1x512 := Rect.unit (s := S1x512) ![0, 0] S1x512.size inb_S1x512_S1x512_0_0

/-- The output block after the body: the one store's payload of the four input blocks, laid over the whole block. -/
def out0_4 (x0 : Vec F S2048x512 .f32) (x1 : Vec F S2048x16 .f32) (x2 : Vec F S16x512 .f32) (x3 : Vec F S1x512 .f32) : Vec F S2048x512 .f32 :=
  View.canon [⟨r0_2, k0_pay1 (View.ld x1 r0_0) (View.ld x2 r0_1) (View.ld x0 r0_2) (View.ld x3 r0_3)⟩]

theorem cover0_4 (p0 : Vec F S2048x512 .f32) (y : S2048x512.Idx) :
    ∃ pc ∈ ([⟨r0_2, p0⟩] : List (View.Piece (Elt F) S2048x512 .f32)), y ∈ pc.1.set :=
  View.cover_of_tiled [⟨r0_2, p0⟩] S2048x512.size (by rfl) y

set_option maxHeartbeats 1000000 in

theorem sound_kernel0 (c : Dev nD) (E : Set ℕ) (i : grid0.Coords) (arg1 : Memref sig .tc .vmem S2048x512 .f32) (harg1 : arg1.IsWhole) (arg2 : Memref sig .tc .vmem S2048x16 .f32) (harg2 : arg2.IsWhole) (arg3 : Memref sig .tc .vmem S16x512 .f32) (harg3 : arg3.IsWhole) (arg4 : Memref sig .tc .vmem S1x512 .f32) (harg4 : arg4.IsWhole) (arg5 : Memref sig .tc .vmem S2048x512 .f32) (harg5 : arg5.IsWhole)
    (x0 : Vec F S2048x512 .f32) (x1 : Vec F S2048x16 .f32) (x2 : Vec F S16x512 .f32) (x3 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__wprime_kernel i arg1 harg1 arg2 harg2 arg3 harg3 arg4 harg4 arg5 harg5) K := by
  simp only [cc0__wprime_kernel_eq_skeleton]; unfold cc0__wprime_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The region's proof data: the arrays as entered; after the body each input buffer at its block and the output buffer
    at out0_4 of the input blocks; the invariant the scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- At every grid point the body, run on the current staging buffers, leaves them as the proof data says. -/
theorem body_obligation0 (c : Dev nD) : BodyObligation (dat0 (F := F) V c) (defs₀ (F := F)) Variants.none () Set.univ := fun t => by
  rw [bigSep_W0, bigSep_W0]
  exact sound_body0 V c t

end Cert.ReferenceIdeal.Hand

end
-- ==== Proof.RefRegion1.lean ====
/-
  The reference program's second pallas region (y = x·W'ᵀ + bias, tiled), as the pipeline sees it, at any float
  instance and at any contents V of the core's buffers when the region is entered.

  The grid is 16 × 8 × 4: point t = (i·8 + j)·4 + k works on the 256 × 256 output tile (i, j) and the k-th chunk of
  512 contraction columns. A scratch tile carries the partial sums between points: at k = 0 it is zeroed, at every k
  the chunk's product x[i, k]·w[j, k]ᵀ is added to it, and at k = 3 the scratch plus the bias tile is stored into the
  output tile, which the pipeline writes back at exactly those points and leaves alone at the others.
  acc1 is the scratch after each point (by recursion on the point), dat1 the region's proof data over it.

  The body has three courses through its two conditionals, and the points meet them by k alone: k = 0 (reset, then
  update), k = 1, 2 (update), k = 3 (update, then the output store). Each course is run once on arbitrary whole
  memrefs and arbitrary contents; what its stores leave is read off as a closed expression in the contents found;
  the point-by-point obligation is then the matching of those expressions with acc1's recursion.
-/
import proofs.«127857_g2000709426913694_pallasbulk_956_2_alg».proof.Proof.Gen.ReferenceIdeal.Launch
import proofs.«127857_g2000709426913694_pallasbulk_956_2_alg».proof.Proof.Gen.ReferenceIdeal.Skeleton
import proofs.«127857_g2000709426913694_pallasbulk_956_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The scratch tile, a whole scoped buffer of the kernel's own. -/
abbrev scM1 : Memref sig .tc .vmem S256x256 .f32 := Memref.whole cc1_scratch0

/-- THE PARTIAL SUMS. The scratch tile after the body at point n: at a point with k = 0 (n ≡ 0 mod 4) the chunk's
    product added to the zero tile, at every other point the chunk's product added to what the point before left. -/
def acc1 (c : Dev nD) : (n : ℕ) → n < cfg1.N → Vec F S256x256 .f32
  | 0, hn => k1_pay2 (k1_pay1 (F := F)) (iblk1 V c 0 ⟨0, hn⟩) (iblk1 V c 1 ⟨0, hn⟩)
  | n + 1, hn =>
    if (n + 1) % 4 = 0 then k1_pay2 (k1_pay1 (F := F)) (iblk1 V c 0 ⟨n + 1, hn⟩) (iblk1 V c 1 ⟨n + 1, hn⟩)
    else k1_pay2 (acc1 c n (Nat.lt_of_succ_lt hn)) (iblk1 V c 0 ⟨n + 1, hn⟩) (iblk1 V c 1 ⟨n + 1, hn⟩)

/-- At a point with k = 0 the partial sum starts afresh. -/
theorem acc1_first (c : Dev nD) (t : Fin cfg1.N) (h : t.val % 4 = 0) :
    acc1 V c t.val t.isLt = k1_pay2 (k1_pay1 (F := F)) (iblk1 V c 0 t) (iblk1 V c 1 t) := by
  obtain ⟨n, hn⟩ := t
  cases n with
  | zero => rfl
  | succ n => exact (if_pos h).trans rfl

/-- At any other point it adds the chunk's product to what the point before left. -/
theorem acc1_next (c : Dev nD) (t : Fin cfg1.N) (h : ¬t.val % 4 = 0) :
    acc1 V c t.val t.isLt
      = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod 4) h
  | succ n => exact (if_neg h).trans rfl

/-! ## The body's two conditionals and the idle table, in closed form over the 512 points -/

/-- The first conditional of the body: the point's coordinate along the contraction axis is 0. -/
abbrev cond1_0 (i : grid1.Coords) : Prop := (Scalar.cmpi .ne (Scalar.extui (Scalar.cmpi .eq (BitVec.ofNat 32 (i 2).val) 0#32)) 0#32) = 1#1
/-- The second conditional of the body: that coordinate is the last one, 3. -/
abbrev cond1_1 (i : grid1.Coords) : Prop := k1_cond2 i = 1#1

/-- The first conditional holds exactly at the points with k = 0. -/
theorem hcond1_0 : ∀ t : Fin cfg1.N, cond1_0 (grid1.coords t) ↔ t.val % 4 = 0 :=
  (by decide +kernel : ∀ t : Fin grid1.N, cond1_0 (grid1.coords t) ↔ t.val % 4 = 0)
/-- The second holds exactly at the points with k = 3. -/
theorem hcond1_1 : ∀ t : Fin cfg1.N, cond1_1 (grid1.coords t) ↔ t.val % 4 = 3 :=
  (by decide +kernel : ∀ t : Fin grid1.N, cond1_1 (grid1.coords t) ↔ t.val % 4 = 3)

/-- The three inputs are never idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
/-- The output tile is idle exactly where the second conditional fails: its table entry is that condition negated. -/
theorem idleAt1_3 (t : Fin cfg1.N) (h : ¬t.val % 4 = 3) : cfg1.idle 3 (grid1.coords t) = true := by
  have hk : ¬k1_cond2 (grid1.coords t) = 1#1 := fun hk => h ((hcond1_1 t).mp hk)
  show (!(k1_cond2 (grid1.coords t) == 1#1)) = true
  rw [Bool.not_eq_true', beq_eq_false_iff_ne]; exact hk
theorem liveAt1_3 (t : Fin cfg1.N) (h : t.val % 4 = 3) : cfg1.idle 3 (grid1.coords t) = false := by
  have hk : k1_cond2 (grid1.coords t) = 1#1 := (hcond1_1 t).mpr h
  show (!(k1_cond2 (grid1.coords t) == 1#1)) = false
  rw [hk]; rfl
/-- And there the pipeline does not write it back. -/
theorem noFlush1_3 (t : Fin cfg1.N) (h : ¬t.val % 4 = 3) : (cfg1.win 3).flush t = false := by
  cases hf : (cfg1.win 3).flush t
  · rfl
  · exact absurd ((flush1_3 t).mp hf) h

/-! ## The three courses of the body, run whole -/

set_option maxHeartbeats 1000000 in
/-- The body at a point whose contraction coordinate is the first: on whole memrefs, the three inputs at their
    contents, the output tile at contents it hands back untouched, the scratch at anything, it runs to any
    continuation that holds the inputs and the output tile as they were and the scratch with the pieces the body
    stored (two: the zero tile, then the chunk's product added to the zero tile read back). -/
noncomputable def kernelRun1_A (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : cond1_0 i) (hc1 : ¬cond1_1 i)
    (x0 : Vec F S256x512 .f32) (x1 : Vec F S256x512 .f32) (x2 : Vec F S1x256 .f32) :
    { LS0 : List (View.Piece (Elt F) S256x256 .f32) //
      ∀ (xi3 : Vec F S256x256 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point whose contraction coordinate is neither first nor last: on whole memrefs, the three inputs at
    their contents, the output tile at contents it hands back untouched, the scratch at what the point before left,
    it runs to any continuation that holds the inputs and the output tile as they were and the scratch with the
    pieces the body stored (one: the chunk's product added to what it found). -/
noncomputable def kernelRun1_B (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : ¬cond1_1 i)
    (x0 : Vec F S256x512 .f32) (x1 : Vec F S256x512 .f32) (x2 : Vec F S1x256 .f32) (xs0 : Vec F S256x256 .f32) :
    { LS0 : List (View.Piece (Elt F) S256x256 .f32) //
      ∀ (xi3 : Vec F S256x256 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point whose contraction coordinate is the last: on whole memrefs, the three inputs at their
    contents, the output tile at anything, the scratch at what the point before left, it runs to any continuation
    that holds the inputs as they were, the scratch with the pieces the body stored (one: the chunk's product added
    to what it found) and the output tile with the pieces stored there (one: the scratch read back plus the bias
    row broadcast). -/
noncomputable def kernelRun1_C (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : cond1_1 i)
    (x0 : Vec F S256x512 .f32) (x1 : Vec F S256x512 .f32) (x2 : Vec F S1x256 .f32) (xs0 : Vec F S256x256 .f32) :
    Σ' (L3 : List (View.Piece (Elt F) S256x256 .f32)), { LS0 : List (View.Piece (Elt F) S256x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨?_, ?_, fun E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each course's stores leave, as expressions in what it found -/

/-- The zero offsets of a whole-tile access, however spelt. -/
theorem hz1 : (![0, 0] : Fin 2 → Nat) = fun _ => 0 := funext fun a => by fin_cases a <;> rfl

/-- In each course the stores into the scratch cover it (every store is of the whole tile); at k = 3 so does the
    store into the output tile. -/
theorem scover1_A (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : cond1_0 i) (hc1 : ¬cond1_1 i) (x0 : Vec F S256x512 .f32) (x1 : Vec F S256x512 .f32) (x2 : Vec F S1x256 .f32) (y : S256x256.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S256x256.size (by sl_kernel_rfl) y

theorem scover1_B (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : ¬cond1_1 i) (x0 : Vec F S256x512 .f32) (x1 : Vec F S256x512 .f32) (x2 : Vec F S1x256 .f32) (xs0 : Vec F S256x256 .f32) (y : S256x256.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S256x256.size (by sl_kernel_rfl) y

theorem scover1_C (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : cond1_1 i) (x0 : Vec F S256x512 .f32) (x1 : Vec F S256x512 .f32) (x2 : Vec F S1x256 .f32) (xs0 : Vec F S256x256 .f32) (y : S256x256.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S256x256.size (by sl_kernel_rfl) y

theorem ocover1_C (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : cond1_1 i) (x0 : Vec F S256x512 .f32) (x1 : Vec F S256x512 .f32) (x2 : Vec F S1x256 .f32) (xs0 : Vec F S256x256 .f32) (y : S256x256.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S256x256.size (by sl_kernel_rfl) y

/-- k = 0: the later store covers, and its payload adds the chunk's product to the zero tile the earlier store left
    (read back through the whole tile). -/
theorem canonS1_A (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : cond1_0 i) (hc1 : ¬cond1_1 i) (x0 : Vec F S256x512 .f32) (x1 : Vec F S256x512 .f32) (x2 : Vec F S1x256 .f32) :
    View.canon (kernelRun1_A c i arg3 harg3 arg4 harg4 arg5 harg5 arg6 harg6 arg7 harg7 hc0 hc1 x0 x1 x2).1 = k1_pay2 (k1_pay1 (F := F)) x0 x1 := by
  unfold kernelRun1_A; dsimp only; sl_unfold_words
  rw [View.canon_cons_unit_zero (S := S256x256) hz1, View.readCov_unit_zero (S := S256x256) _ hz1]
  simp only [View.readAt_eq_ld, harg3.read_unread, harg4.read_unread, View.ld_unit_zero (S := S256x512) hz1]

/-- k = 1, 2: one store, the chunk's product added to the tile found. -/
theorem canonS1_B (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : ¬cond1_1 i) (x0 : Vec F S256x512 .f32) (x1 : Vec F S256x512 .f32) (x2 : Vec F S1x256 .f32) (xs0 : Vec F S256x256 .f32) :
    View.canon (kernelRun1_B c i arg3 harg3 arg4 harg4 arg5 harg5 arg6 harg6 arg7 harg7 hc0 hc1 x0 x1 x2 xs0).1 = k1_pay2 xs0 x0 x1 := by
  unfold kernelRun1_B; dsimp only; sl_unfold_words
  rw [View.canon_unit_zero (S := S256x256) hz1]
  simp only [View.readAt_eq_ld, harg3.read_unread, harg4.read_unread, harg7.read_unread,
    View.ld_unit_zero (S := S256x512) hz1, View.ld_unit_zero (S := S256x256) hz1]

/-- k = 3: the scratch as at k = 1, 2; -/
theorem canonS1_C (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : cond1_1 i) (x0 : Vec F S256x512 .f32) (x1 : Vec F S256x512 .f32) (x2 : Vec F S1x256 .f32) (xs0 : Vec F S256x256 .f32) :
    View.canon (kernelRun1_C c i arg3 harg3 arg4 harg4 arg5 harg5 arg6 harg6 arg7 harg7 hc0 hc1 x0 x1 x2 xs0).2.1 = k1_pay2 xs0 x0 x1 := by
  unfold kernelRun1_C; dsimp only; sl_unfold_words
  rw [View.canon_unit_zero (S := S256x256) hz1]
  simp only [View.readAt_eq_ld, harg3.read_unread, harg4.read_unread, harg7.read_unread,
    View.ld_unit_zero (S := S256x512) hz1, View.ld_unit_zero (S := S256x256) hz1]

/-- and the output tile holds that scratch, read back after its store, plus the bias row on every row. -/
theorem canonO1_C (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : cond1_1 i) (x0 : Vec F S256x512 .f32) (x1 : Vec F S256x512 .f32) (x2 : Vec F S1x256 .f32) (xs0 : Vec F S256x256 .f32) :
    View.canon (kernelRun1_C c i arg3 harg3 arg4 harg4 arg5 harg5 arg6 harg6 arg7 harg7 hc0 hc1 x0 x1 x2 xs0).1 = k1_pay3 (k1_pay2 xs0 x0 x1) x2 := by
  unfold kernelRun1_C; dsimp only; sl_unfold_words
  rw [View.canon_unit_zero (S := S256x256) hz1]
  simp only [View.readAt_eq_ld, View.readCov_unit_zero (S := S256x256) _ hz1, harg3.read_unread, harg4.read_unread,
    harg5.read_unread, harg7.read_unread, View.ld_unit_zero (S := S256x512) hz1, View.ld_unit_zero (S := S256x256) hz1,
    View.ld_unit_zero (S := S1x256) hz1]

/-! ## The three courses as triples over contents -/

/-- k = 0: from the scratch at anything to the chunk's product added to the zero tile; the output tile untouched. -/
theorem spec1_A (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : cond1_0 i) (hc1 : ¬cond1_1 i) (x0 : Vec F S256x512 .f32) (x1 : Vec F S256x512 .f32) (x2 : Vec F S1x256 .f32)
    (xi3 : Vec F S256x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare (k1_pay2 (k1_pay1 (F := F)) x0 x1)) -∗ K ⟨⟩))
      ⊢ wp frame (wpE (defs₀ (F := F)) Variants.none c none) E (cc1__matmul_bias_kernel i arg3 harg3 arg4 harg4 arg5 harg5 arg6 harg6 arg7 harg7) K := by
  iintro ⟨H0, H1, H2, H3, HS, Hk⟩
  iapply ((kernelRun1_A c i arg3 harg3 arg4 harg4 arg5 harg5 arg6 harg6 arg7 harg7 hc0 hc1 x0 x1 x2).2 xi3 E K)
  isplitl [H0]; · iexact H0
  isplitl [H1]; · iexact H1
  isplitl [H2]; · iexact H2
  isplitl [H3]; · iexact H3
  isplitl [HS]; · iexact HS
  iintro ⟨H0, H1, H2, H3, ⟨%f, HS⟩⟩
  iapply Hk
  isplitl [H0]; · iexact H0
  isplitl [H1]; · iexact H1
  isplitl [H2]; · iexact H2
  isplitl [H3]; · iexact H3
  unfold owns; iexists _; isplitr
  swap; · iexact HS
  ipureintro
  exact (View.read_writes_eq_canon _ _ _ (scover1_A c i arg3 harg3 arg4 harg4 arg5 harg5 arg6 harg6 arg7 harg7 hc0 hc1 x0 x1 x2)).trans (canonS1_A c i arg3 harg3 arg4 harg4 arg5 harg5 arg6 harg6 arg7 harg7 hc0 hc1 x0 x1 x2)

/-- k = 1, 2: from the scratch at xs0 to the chunk's product added to xs0; the output tile untouched. -/
theorem spec1_B (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : ¬cond1_1 i) (x0 : Vec F S256x512 .f32) (x1 : Vec F S256x512 .f32) (x2 : Vec F S1x256 .f32) (xs0 : Vec F S256x256 .f32)
    (xi3 : Vec F S256x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare (k1_pay2 xs0 x0 x1)) -∗ K ⟨⟩))
      ⊢ wp frame (wpE (defs₀ (F := F)) Variants.none c none) E (cc1__matmul_bias_kernel i arg3 harg3 arg4 harg4 arg5 harg5 arg6 harg6 arg7 harg7) K := by
  iintro ⟨H0, H1, H2, H3, HS, Hk⟩
  iapply ((kernelRun1_B c i arg3 harg3 arg4 harg4 arg5 harg5 arg6 harg6 arg7 harg7 hc0 hc1 x0 x1 x2 xs0).2 xi3 E K)
  isplitl [H0]; · iexact H0
  isplitl [H1]; · iexact H1
  isplitl [H2]; · iexact H2
  isplitl [H3]; · iexact H3
  isplitl [HS]; · iexact HS
  iintro ⟨H0, H1, H2, H3, ⟨%f, HS⟩⟩
  iapply Hk
  isplitl [H0]; · iexact H0
  isplitl [H1]; · iexact H1
  isplitl [H2]; · iexact H2
  isplitl [H3]; · iexact H3
  unfold owns; iexists _; isplitr
  swap; · iexact HS
  ipureintro
  exact (View.read_writes_eq_canon _ _ _ (scover1_B c i arg3 harg3 arg4 harg4 arg5 harg5 arg6 harg6 arg7 harg7 hc0 hc1 x0 x1 x2 xs0)).trans (canonS1_B c i arg3 harg3 arg4 harg4 arg5 harg5 arg6 harg6 arg7 harg7 hc0 hc1 x0 x1 x2 xs0)

/-- k = 3: the scratch as at k = 1, 2, and the output tile from anything to that scratch plus the bias row. -/
theorem spec1_C (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : cond1_1 i) (x0 : Vec F S256x512 .f32) (x1 : Vec F S256x512 .f32) (x2 : Vec F S1x256 .f32) (xs0 : Vec F S256x256 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
        ∗ (iprop(owns (c : Thread nD τ) arg3 fullShare x0 ∗ owns (c : Thread nD τ) arg4 fullShare x1 ∗ owns (c : Thread nD τ) arg5 fullShare x2 ∗ owns (c : Thread nD τ) arg6 fullShare (k1_pay3 (k1_pay2 xs0 x0 x1) x2) ∗ owns (c : Thread nD τ) arg7 fullShare (k1_pay2 xs0 x0 x1)) -∗ K ⟨⟩))
      ⊢ wp frame (wpE (defs₀ (F := F)) Variants.none c none) E (cc1__matmul_bias_kernel i arg3 harg3 arg4 harg4 arg5 harg5 arg6 harg6 arg7 harg7) K := by
  iintro ⟨H0, H1, H2, H3, HS, Hk⟩
  iapply ((kernelRun1_C c i arg3 harg3 arg4 harg4 arg5 harg5 arg6 harg6 arg7 harg7 hc0 hc1 x0 x1 x2 xs0).2.2 E K)
  isplitl [H0]; · iexact H0
  isplitl [H1]; · iexact H1
  isplitl [H2]; · iexact H2
  isplitl [H3]; · iexact H3
  isplitl [HS]; · iexact HS
  iintro ⟨H0, H1, H2, ⟨%g, H3⟩, ⟨%f, HS⟩⟩
  iapply Hk
  isplitl [H0]; · iexact H0
  isplitl [H1]; · iexact H1
  isplitl [H2]; · iexact H2
  isplitl [H3]
  · unfold owns; iexists _; isplitr
    swap; · iexact H3
    ipureintro
    exact (View.read_writes_eq_canon _ _ _ (ocover1_C c i arg3 harg3 arg4 harg4 arg5 harg5 arg6 harg6 arg7 harg7 hc0 hc1 x0 x1 x2 xs0)).trans (canonO1_C c i arg3 harg3 arg4 harg4 arg5 harg5 arg6 harg6 arg7 harg7 hc0 hc1 x0 x1 x2 xs0)
  unfold owns; iexists _; isplitr
  swap; · iexact HS
  ipureintro
  exact (View.read_writes_eq_canon _ _ _ (scover1_C c i arg3 harg3 arg4 harg4 arg5 harg5 arg6 harg6 arg7 harg7 hc0 hc1 x0 x1 x2 xs0)).trans (canonS1_C c i arg3 harg3 arg4 harg4 arg5 harg5 arg6 harg6 arg7 harg7 hc0 hc1 x0 x1 x2 xs0)

/-! ## The region's invariant -/

/-- What the region holds beside the scratch and never looks at: the first region's nine staging buffers, each
    whole at some contents, and the generator register at some state. -/
def rest1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ r, prngReg c r))

/-- The class's invariant is the scratch at anything beside that rest: -/
theorem PhiA1_open (c : Dev nD) :
    (Pipeline.ΦA spec1 c : sProp 𝕄) ⊢ iprop((∃ d, owns (c : Thread nD τ) scM1 fullShare d) ∗ rest1 (F := F) c) := by
  unfold Pipeline.ΦA rest1; rw [scopedRest1_eq]; simp only [scM1, owns_whole]
  iintro ⟨⟨R1, R2, R3, R4, R5, R6, R7, R8, R9, HS⟩, Hg⟩
  isplitl [HS]; · iexact HS
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  iexact Hg

/-- and back. -/
theorem PhiA1_close (c : Dev nD) :
    iprop((∃ d, owns (c : Thread nD τ) scM1 fullShare d) ∗ rest1 (F := F) c) ⊢ (Pipeline.ΦA spec1 c : sProp 𝕄) := by
  unfold Pipeline.ΦA rest1; rw [scopedRest1_eq]; simp only [scM1, owns_whole]
  iintro ⟨HS, R1, R2, R3, R4, R5, R6, R7, R8, R9, Hg⟩
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  iexact HS

/-- The region's invariant before position n: before the first point the class's (the scoped rest, the scratch among it
    at anything, and the generator register); afterwards the scratch tile at the partial sums the point before left,
    beside the rest. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ rest1 c)

theorem PhiS1_succ (c : Dev nD) (n : ℕ) (hn : n < cfg1.N) :
    PhiS1 V c (n + 1) hn = iprop(owns (c : Thread nD τ) scM1 fullShare (acc1 V c n hn) ∗ rest1 c) := rfl

theorem PhiS1_pos (c : Dev nD) (n : ℕ) (h : n ≤ cfg1.N) (hz : n ≠ 0) :
    PhiS1 V c n h = iprop(owns (c : Thread nD τ) scM1 fullShare (acc1 V c (n - 1) (by omega)) ∗ rest1 c) := by
  cases n with
  | zero => exact absurd rfl hz
  | succ n => rfl

/-- At every position the invariant has the scratch at SOME contents beside the rest: all a point with k = 0 asks. -/
theorem PhiS1_any (c : Dev nD) (n : ℕ) (h : n ≤ cfg1.N) :
    PhiS1 V c n h ⊢ iprop((∃ d, owns (c : Thread nD τ) scM1 fullShare d) ∗ rest1 (F := F) c) := by
  cases n with
  | zero => exact PhiA1_open c
  | succ n =>
    rw [PhiS1_succ]
    iintro ⟨HS, HR⟩
    isplitl [HS]; · iexists _; iexact HS
    iexact HR

/-- The region's proof data: the arrays as entered; after the body each input buffer at its block and the output tile at
    the partial sums plus the bias tile (what the body stores there at the points with k = 3; at the other points the
    output is idle and this value is not consulted); the invariant PhiS1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]

/-! ## The body at a point -/

/-- Each window's current staging memref at point t, as the pipeline passes it to the body, and its wholeness. -/
abbrev ms1_0 (t : Fin cfg1.N) : Memref sig .tc .vmem S256x512 .f32 := win1_0.stage (cfg1.slots t 0)
abbrev ms1_1 (t : Fin cfg1.N) : Memref sig .tc .vmem S256x512 .f32 := win1_1.stage (cfg1.slots t 1)
abbrev ms1_2 (t : Fin cfg1.N) : Memref sig .tc .vmem S1x256 .f32 := win1_2.stage (cfg1.slots t 2)
abbrev ms1_3 (t : Fin cfg1.N) : Memref sig .tc .vmem S256x256 .f32 := win1_3.stage (cfg1.slots t 3)

/-- The invariant at a point's start, at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body owes for each window: an input's buffer back at its block; -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
/-- the output tile's as it was found where k ≠ 3, -/
theorem leaves1_3_idle (c : Dev nD) (t : Fin cfg1.N) (h : ¬t.val % 4 = 3) :
    (dat1 V c).leavesExact 3 t = iprop(∃ d, owns (c : Thread nD τ) (ms1_3 t) fullShare ((dat1 V c).before 3 t d)) :=
  Dat.leavesExact_idle (dat1 V c) 3 t (idleAt1_3 t h) (noFlush1_3 t h)
/-- and at the partial sums plus the bias tile where k = 3. -/
theorem leaves1_3_live (c : Dev nD) (t : Fin cfg1.N) (h : t.val % 4 = 3) :
    (dat1 V c).leavesExact 3 t
      = owns (c : Thread nD τ) (ms1_3 t) fullShare (k1_pay3 (acc1 V c t.val t.isLt) (iblk1 V c 2 t)) := by
  unfold Dat.leavesExact; rw [liveAt1_3 t h, after1_3]

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

/-- The same two with the proof data's lookups resolved: the inputs at their blocks, the invariant after the point
    as the scratch at acc1 beside the rest, nothing owed before or after. -/
theorem bodyPre1_eq (c : Dev nD) (t : Fin cfg1.N) :
    bodyPre1 V c t = iprop(PhiS1 V c t.val (Nat.le_of_lt t.isLt) ∗ (dat1 V c).owesAt () t.castSucc
      ∗ (∃ d : (cfg1.win 0).block.Idx → Elt F (cfg1.win 0).elt, owns (c : Thread nD τ) (ms1_0 t) fullShare (iblk1 V c 0 t))
      ∗ (∃ d : (cfg1.win 1).block.Idx → Elt F (cfg1.win 1).elt, owns (c : Thread nD τ) (ms1_1 t) fullShare (iblk1 V c 1 t))
      ∗ (∃ d : (cfg1.win 2).block.Idx → Elt F (cfg1.win 2).elt, owns (c : Thread nD τ) (ms1_2 t) fullShare (iblk1 V c 2 t))
      ∗ (∃ d, owns (c : Thread nD τ) (ms1_3 t) fullShare ((dat1 V c).before 3 t d))) := by
  unfold bodyPre1; simp only [before1_0, before1_1, before1_2, PhiS1_castSucc]

set_option maxHeartbeats 1000000 in
/-- k = 0. The scratch is taken at whatever the invariant has it at, and comes back at the chunk's product added to
    the zero tile, which is acc1 there; the output tile goes back as found. -/
theorem sound1_A (c : Dev nD) (t : Fin cfg1.N) (h0 : t.val % 4 = 0) :
    bodyPre1 V c t ⊢ wp frame (wpE (defs₀ (F := F)) Variants.none c none) Set.univ (bodyAt1 t) (fun _ => bodyPost1 V c t) := by
  have h3 : ¬t.val % 4 = 3 := by omega
  rw [bodyPre1_eq]; unfold bodyPost1 bodyAt1
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3_idle V c t h3, acc1_first V c t h0]
  refine (sep_mono_left (PhiS1_any V c _ _)).trans ?_
  iintro ⟨⟨HS, HR⟩, Ho, ⟨%d0, H0⟩, ⟨%d1, H1⟩, ⟨%d2, H2⟩, ⟨%d3, H3⟩⟩
  iapply (spec1_A c (grid1.coords t) _ _ _ _ _ _ _ _ _ _ ((hcond1_0 t).mpr h0) (fun h => h3 ((hcond1_1 t).mp h))
    (iblk1 V c 0 t) (iblk1 V c 1 t) (iblk1 V c 2 t) _ Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]; · iexact HS
    iexact HR
  isplitl [Ho]; · iexact Ho
  isplitl [H0]; · iexact H0
  isplitl [H1]; · iexact H1
  isplitl [H2]; · iexact H2
  iexists _; iexact H3

set_option maxHeartbeats 1000000 in
/-- k = 1, 2. The scratch is taken at what the point before left and comes back with the chunk's product added,
    which is acc1's step; the output tile goes back as found. -/
theorem sound1_B (c : Dev nD) (t : Fin cfg1.N) (h0 : ¬t.val % 4 = 0) (h3 : ¬t.val % 4 = 3) :
    bodyPre1 V c t ⊢ wp frame (wpE (defs₀ (F := F)) Variants.none c none) Set.univ (bodyAt1 t) (fun _ => bodyPost1 V c t) := by
  have hz : t.val ≠ 0 := fun h => h0 (by rw [h])
  rw [bodyPre1_eq]; unfold bodyPost1 bodyAt1
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3_idle V c t h3, acc1_next V c t h0, PhiS1_pos V c _ _ hz]
  iintro ⟨⟨HS, HR⟩, Ho, ⟨%d0, H0⟩, ⟨%d1, H1⟩, ⟨%d2, H2⟩, ⟨%d3, H3⟩⟩
  iapply (spec1_B c (grid1.coords t) _ _ _ _ _ _ _ _ _ _ (fun h => h0 ((hcond1_0 t).mp h)) (fun h => h3 ((hcond1_1 t).mp h))
    (iblk1 V c 0 t) (iblk1 V c 1 t) (iblk1 V c 2 t) _ _ Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]; · iexact HS
    iexact HR
  isplitl [Ho]; · iexact Ho
  isplitl [H0]; · iexact H0
  isplitl [H1]; · iexact H1
  isplitl [H2]; · iexact H2
  iexists _; iexact H3

set_option maxHeartbeats 1000000 in
/-- k = 3. The scratch as at k = 1, 2; the output tile, taken at anything, comes back at the new scratch plus the
    bias tile, which is what the proof data says the pipeline writes back there. -/
theorem sound1_C (c : Dev nD) (t : Fin cfg1.N) (h3 : t.val % 4 = 3) :
    bodyPre1 V c t ⊢ wp frame (wpE (defs₀ (F := F)) Variants.none c none) Set.univ (bodyAt1 t) (fun _ => bodyPost1 V c t) := by
  have h0 : ¬t.val % 4 = 0 := by omega
  have hz : t.val ≠ 0 := fun h => h0 (by rw [h])
  rw [bodyPre1_eq]; unfold bodyPost1 bodyAt1
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3_live V c t h3, acc1_next V c t h0, PhiS1_pos V c _ _ hz]
  iintro ⟨⟨HS, HR⟩, Ho, ⟨%d0, H0⟩, ⟨%d1, H1⟩, ⟨%d2, H2⟩, ⟨%d3, H3⟩⟩
  iapply (spec1_C c (grid1.coords t) _ _ _ _ _ _ _ _ _ _ (fun h => h0 ((hcond1_0 t).mp h)) ((hcond1_1 t).mpr h3)
    (iblk1 V c 0 t) (iblk1 V c 1 t) (iblk1 V c 2 t) _ Set.univ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HR]
  · isplitl [HS]; · iexact HS
    iexact HR
  isplitl [Ho]; · iexact Ho
  isplitl [H0]; · iexact H0
  isplitl [H1]; · iexact H1
  isplitl [H2]; · iexact H2
  iexact H3

/-- At every grid point the body, run on the current staging buffers and the scratch, leaves them as the proof data says. -/
theorem body_obligation1 (c : Dev nD) : BodyObligation (dat1 (F := F) V c) (defs₀ (F := F)) Variants.none () Set.univ := fun t => by
  rw [bigSep_W1, bigSep_W1]
  by_cases h0 : t.val % 4 = 0
  · exact sound1_A V c t h0
  · by_cases h3 : t.val % 4 = 3
    · exact sound1_C V c t h3
    · exact sound1_B V c t h0 h3

/-- What the launch hands the region is the invariant before the first point. -/
theorem Phi1_first (c : Dev nD) : Pipeline.ΦA spec1 c ⊢ (dat1 V c).Φ 0 := by
  show (Pipeline.ΦA spec1 c : sProp 𝕄) ⊢ Pipeline.ΦA spec1 c
  exact .rfl

/-- After the last point the invariant gives the class's back: the scratch's contents are forgotten. -/
theorem Phi1_last (c : Dev nD) : (dat1 V c).Φ (Fin.last cfg1.N) ⊢ Pipeline.ΦA spec1 c := by
  have hz : (Fin.last cfg1.N).val ≠ 0 := by rw [Fin.val_last]; have : cfg1.N = 512 := N_1; omega
  rw [show (dat1 V c).Φ (Fin.last cfg1.N) = PhiS1 V c (Fin.last cfg1.N).val (Nat.le_of_lt_succ (Fin.last cfg1.N).isLt) from rfl,
    PhiS1_pos V c _ _ hz]
  iintro ⟨HS, HR⟩
  iapply (PhiA1_close c)
  isplitl [HS]; · iexists _; iexact HS
  iexact HR

end Cert.ReferenceIdeal.Hand

end
-- ==== Proof.RefRun.lean ====
/-
  The reference program's whole run: @main is five items in order — the reshape of x, the region that computes W',
  the reshape of the bias, the tiled region that computes y, and the reshape of y back to three axes.

  W0 … W5 are the contents of the core's unscoped buffers at the six boundaries between the items, a fold from the
  launch memory: a host item's operations applied (W1, W3, W5), and after a region its arrays at what the pipeline's
  write-backs leave (the proof data's arrAt) with every other buffer as it was (W2, W4). Each region is entered from
  "every unscoped buffer at the boundary's contents, the generator register at some state, nothing owed" and left at
  the same with the next boundary's contents; the first region keeps the class's invariant, the second carries its
  scratch tile through the invariant of its proof data. The launch theorem then gives: every weakly fair execution of
  @main terminates without a fault and ends with every unscoped buffer at W5 (run_all). The argument buffers are
  written by no item, so W5 at an argument is the launch memory (frame).
-/
import proofs.«127857_g2000709426913694_pallasbulk_956_2_alg».proof.Proof.RefRegion0
import proofs.«127857_g2000709426913694_pallasbulk_956_2_alg».proof.Proof.RefRegion1

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hostOps2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W5 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : Pipeline.ΦA spec1 c ⊢ (pdats m ρ 1 c).Φ 0 := Phi1_first (V3 m ρ) c
    iintro ⟨Hp, -, Hr⟩
    iapply h1
    unfold Pipeline.ΦA
    isplitl [Hr]; · iexact Hr
    iexact Hp
  hout c := by
    rw [Pipeline.ownSems0_none]
    have h1 : (pdats m ρ 1 c).Φ (Fin.last _) ⊢ Pipeline.ΦA spec1 c := Phi1_last (V3 m ρ) c
    iintro H
    ihave H' := h1 $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)
    (run_all m ρ)

end Cert.ReferenceIdeal.Hand

end
-- ==== Proof.RefValue0.lean ====
/-
  What the reference's first region leaves in its output array, over the extended reals.

  At grid point t the pipeline writes back the column block t (512 columns) of W': the body's one payload of B whole and
  of the column blocks t of A, V and m. The four blocks tile the 2048 columns, so the array ends holding, at every index,
  that payload of the index's own column block read at the index's place inside the block: Spec.wArr.
-/
import proofs.«127857_g2000709426913694_pallasbulk_956_2_alg».proof.Proof.RefRegion0
import proofs.«127857_g2000709426913694_pallasbulk_956_2_alg».proof.Proof.Spec
import Idealize.ShloMosaic.Lib.Pipeline.Value
import Idealize.ShloMosaic.Lib.ValueLayout

set_option maxRecDepth 16384

noncomputable section

open scoped BigOperators

namespace Cert.ReferenceIdeal.Hand

open Idealize.ShloMosaic Idealize.ShloMosaic.TcCoe Idealize.ShloMosaic.ValueIdx Idealize.SL.Sem
open Idealize.ShloMosaic.Pipeline (Dat)
open Cert.ReferenceIdeal Cert.ReferenceIdeal.Gen

/-! The auxiliary facts of this region live in their own namespace. -/
namespace Region0

variable (V : (c : Dev nD) → (b : Ref sig .tc) → Buf (Elt Ideal) ((c : Thread nD τ).loc b)) (c : Dev nD)

/-- The zero offset of a whole-buffer access, as the constant function. -/
theorem hz : (![0, 0] : Fin 2 → Nat) = fun _ => 0 := funext fun a => by fin_cases a <;> rfl

/-- The grid has four points. -/
theorem lt4 (t : Fin cfg0.N) : t.val < 4 := by
  have h := t.isLt
  have e : cfg0.N = 4 := N_0
  omega

/-- The five index maps over the grid: every window sits at block row 0; B's window stays at block column 0, the
    other four move to block column t. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- B's block at every point is B whole. -/
theorem blk_B (t : Fin cfg0.N) : iblk0 (F := Ideal) V c 1 t = V c main_arg2 := by
  obtain ⟨-, -, e0, e1, -⟩ := idx_facts t
  funext y
  show V c main_arg2 (((cfg0.win 1).blk t).view.emb y) = V c main_arg2 y
  refine congrArg _ ?_
  funext a; apply Fin.ext
  match a with
  | ⟨0, _⟩ => show win0_1.index t (0 : Fin 2) * 2048 + 1 * (y 0).val = (y 0).val; omega
  | ⟨1, _⟩ => show win0_1.index t (1 : Fin 2) * 16 + 1 * (y 1).val = (y 1).val; omega

/-- A's block at point t is its column block t. -/
theorem blk_A (t : Fin cfg0.N) : iblk0 (F := Ideal) V c 2 t = Cert.Spec.colBlk (φ := .f32) 16 (V c main_arg3) ⟨t.val, lt4 t⟩ := by
  obtain ⟨-, -, -, -, e0, e1, -⟩ := idx_facts t
  funext y
  show V c main_arg3 (((cfg0.win 2).blk t).view.emb y) = _
  refine congrArg (V c main_arg3) ?_
  funext a; apply Fin.ext
  match a with
  | ⟨0, _⟩ => show win0_2.index t (0 : Fin 2) * 16 + 1 * (y 0).val = (y 0).val; omega
  | ⟨1, _⟩ => show win0_2.index t (1 : Fin 2) * 512 + 1 * (y 1).val = 512 * t.val + (y 1).val; omega

/-- V's block at point t is its column block t. -/
theorem blk_V (t : Fin cfg0.N) : iblk0 (F := Ideal) V c 0 t = Cert.Spec.colBlk (φ := .f32) 2048 (V c main_arg1) ⟨t.val, lt4 t⟩ := by
  obtain ⟨e0, e1, -⟩ := idx_facts t
  funext y
  show V c main_arg1 (((cfg0.win 0).blk t).view.emb y) = _
  refine congrArg (V c main_arg1) ?_
  funext a; apply Fin.ext
  match a with
  | ⟨0, _⟩ => show win0_0.index t (0 : Fin 2) * 2048 + 1 * (y 0).val = (y 0).val; omega
  | ⟨1, _⟩ => show win0_0.index t (1 : Fin 2) * 512 + 1 * (y 1).val = 512 * t.val + (y 1).val; omega

/-- m's block at point t is its column block t. -/
theorem blk_M (t : Fin cfg0.N) : iblk0 (F := Ideal) V c 3 t = Cert.Spec.colBlk (φ := .f32) 1 (V c main_arg4) ⟨t.val, lt4 t⟩ := by
  obtain ⟨-, -, -, -, -, -, e0, e1, -⟩ := idx_facts t
  funext y
  show V c main_arg4 (((cfg0.win 3).blk t).view.emb y) = _
  refine congrArg (V c main_arg4) ?_
  funext a; apply Fin.ext
  match a with
  | ⟨0, _⟩ => show win0_3.index t (0 : Fin 2) * 1 + 1 * (y 0).val = (y 0).val; omega
  | ⟨1, _⟩ => show win0_3.index t (1 : Fin 2) * 512 + 1 * (y 1).val = 512 * t.val + (y 1).val; omega

/-- The specification's array for this region: the payload, kept abstract, of B and the column blocks. -/
abbrev G : FVec Ideal ⟨2, ![2048, 2048]⟩ .f32 :=
  Cert.Spec.wArr (fun a b x d => k0_pay1 (F := Ideal) a b x d) (V c main_arg1) (V c main_arg2) (V c main_arg3) (V c main_arg4)

/-- What point t writes back is column block t of the specification's array. -/
theorem flushed_eq (t : Fin cfg0.N) :
    (dat0 (F := Ideal) V c).flushed 4 t = ((cfg0.win 4).blk t).view.read (Elt Ideal) (G V c) := by
  show (cfg0.win 4).cut (grid0.coords t) ((dat0 V c).after 4 t) = _
  rw [after0_4]
  unfold out0_4
  rw [View.canon_unit_zero hz]
  simp only [View.ld_unit_zero (S := S2048x16) hz, View.ld_unit_zero (S := S16x512) hz,
    View.ld_unit_zero (S := S2048x512) hz, View.ld_unit_zero (S := S1x512) hz]
  rw [blk_B, blk_A, blk_V, blk_M]
  obtain ⟨-, -, -, -, -, -, -, -, e0, e1⟩ := idx_facts t
  funext y
  -- the entry of the array that local index y of block t names: row y₀, column 512·t + y₁
  have h0 : ((((cfg0.win 4).blk t).view.emb y : S2048x2048.Idx) 0).val = ((y : S2048x512.Idx) 0).val := by
    show win0_4.index t (0 : Fin 2) * 2048 + 1 * (y 0).val = (y 0).val; omega
  have h1 : ((((cfg0.win 4).blk t).view.emb y : S2048x2048.Idx) 1).val = 512 * t.val + ((y : S2048x512.Idx) 1).val := by
    show win0_4.index t (1 : Fin 2) * 512 + 1 * (y 1).val = 512 * t.val + (y 1).val; omega
  exact (Cert.Spec.wArr_blk (fun a b x d => k0_pay1 (F := Ideal) a b x d) (V c main_arg1) (V c main_arg2) (V c main_arg3)
    (V c main_arg4) ⟨t.val, lt4 t⟩ y (((cfg0.win 4).blk t).view.emb y) h0 h1).symm

/-- An index of the array is in point t's block iff each coordinate is in the block's range on its axis. -/
theorem mem_blk (t : Fin cfg0.N) (i : S2048x2048.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v1).slice (win0_4.rect t)).set ↔ _
  rw [View.set_slice_whole, Rect.mem_set_unit]
  exact Iff.rfl

end Region0

/-- Region 0's output array after the region: W' as the abstract block function of the region's entry arrays. -/
theorem rW (V : (c : Dev nD) → (b : Ref sig .tc) → Buf (Elt Ideal) ((c : Thread nD τ).loc b)) (c : Dev nD) :
    (dat0 (F := Ideal) V c).arrAt 4 cfg0.N
      = Cert.Spec.wArr (fun a b x d => k0_pay1 (F := Ideal) a b x d) (V c main_arg1) (V c main_arg2) (V c main_arg3) (V c main_arg4) := by
  refine (dat0 (F := Ideal) V c).arrAt_eq_of_cover 4 (Region0.G V c) (fun t _ => Region0.flushed_eq V c t) (fun i => ?_)
  -- index i lies in the block of the point numbered by its column block
  have hi1 : (i 1).val < 2048 := idx2_lt1 (n0 := 2048) (n1 := 2048) i
  have hi0 : (i 0).val < 2048 := idx2_lt0 (n0 := 2048) (n1 := 2048) i
  let t : Fin cfg0.N := ⟨(i 1).val / 512, by have e : cfg0.N = 4 := N_0; omega⟩
  obtain ⟨-, -, -, -, -, -, -, -, e0, e1⟩ := Region0.idx_facts t
  refine ⟨t, flush0_4 t, ?_⟩
  rw [Region0.mem_blk]
  intro a
  match a with
  | ⟨0, _⟩ => show win0_4.index t (0 : Fin 2) * 2048 ≤ (i 0).val ∧ (i 0).val < win0_4.index t (0 : Fin 2) * 2048 + 2048; omega
  | ⟨1, _⟩ =>
    show win0_4.index t (1 : Fin 2) * 512 ≤ (i 1).val ∧ (i 1).val < win0_4.index t (1 : Fin 2) * 512 + 512
    have ht : t.val = (i 1).val / 512 := rfl
    omega

end Cert.ReferenceIdeal.Hand

end
-- ==== Proof.RefValue.lean ====
/-
  What the reference program leaves in its result buffer, over the extended reals.

  Region 0 is the kernel's region 0 word for word: its array ends holding Spec.wArr of the region's entry arrays (rW).
  Region 1 works tile by tile: at the point (i, j, k) the scratch tile holds, entry by entry, the sum of the first k + 1
  partial contractions (512 columns each) of the x rows of tile row i with the W' rows of tile column j, added one after
  the other into zero (an induction over k, acc1_chunks); at k = 3 that plus the bias entry is written back to tile
  (i, j), and the 16 × 8 tiles cover the array: the array ends holding Spec.yTiled (rY). Read through the three reshapes
  of @main, the result buffer ends at the reshape of yTiled of the reshaped x, of wArr of the arguments and of the
  reshaped bias (rResult).
-/
import proofs.«127857_g2000709426913694_pallasbulk_956_2_alg».proof.Proof.RefRun
import proofs.«127857_g2000709426913694_pallasbulk_956_2_alg».proof.Proof.RefValue0
import proofs.«127857_g2000709426913694_pallasbulk_956_2_alg».proof.Proof.Spec
import proofs.«127857_g2000709426913694_pallasbulk_956_2_alg».proof.Proof.LibMatmulNT
import Idealize.ShloMosaic.Lib.Pipeline.Value
import Idealize.ShloMosaic.Lib.ValueLayout
import Idealize.ShloMosaic.Lib.StableHlo.Run

set_option maxRecDepth 16384

noncomputable section

open scoped BigOperators

namespace Cert.ReferenceIdeal.Hand

open Idealize.ShloMosaic Idealize.ShloMosaic.TcCoe Idealize.ShloMosaic.ValueIdx Idealize.SL.Sem
open Idealize.ShloMosaic.Pipeline (Dat)
open Cert.ReferenceIdeal Cert.ReferenceIdeal.Gen

namespace Region1

/-- The index maps of region 1's four windows in closed form, over the 512 grid points: point t = (i·8 + j)·4 + k
    reads the x tile (i, k), the W' tile (j, k), the bias tile (0, j) and owns the output tile (i, j). -/
theorem tiles1 : ∀ t : Fin cfg1.N,
    win1_0.index t (0 : Fin 2) = t.val / 32 ∧ win1_0.index t (1 : Fin 2) = t.val % 4
    ∧ win1_1.index t (0 : Fin 2) = t.val / 4 % 8 ∧ win1_1.index t (1 : Fin 2) = t.val % 4
    ∧ win1_2.index t (0 : Fin 2) = 0 ∧ win1_2.index t (1 : Fin 2) = t.val / 4 % 8
    ∧ win1_3.index t (0 : Fin 2) = t.val / 32 ∧ win1_3.index t (1 : Fin 2) = t.val / 4 % 8 :=
  (by decide +kernel : ∀ t : Fin grid1.N, _)

variable (V : (c : Dev nD) → (b : Ref sig .tc) → Buf (Elt Ideal) ((c : Thread nD τ).loc b))

/-- The x tile of point t at (p, c'): x at row 256·(t / 32) + p and column 512·(t % 4) + c'. -/
theorem xTile_apply (c : Dev nD) (t : Fin cfg1.N) (p : Fin 256) (c' : Fin 512) (r : Fin 4096) (k : Fin 2048)
    (hr : r.val = 256 * (t.val / 32) + p.val) (hk : k.val = 512 * (t.val % 4) + c'.val) :
    (iblk1 V c 0 t : Vec Ideal S256x512 .f32) (ix2 p c') = V c main_v0 (ix2 r k) := by
  obtain ⟨e0, e1, -⟩ := tiles1 t
  unfold iblk1
  rw [View.read_apply]
  show V c main_v0 _ = V c main_v0 _
  congr 1
  funext a
  apply Fin.ext
  match a with
  | ⟨0, _⟩ => show win1_0.index t (0 : Fin 2) * 256 + 1 * p.val = r.val; rw [e0]; omega
  | ⟨1, _⟩ => show win1_0.index t (1 : Fin 2) * 512 + 1 * c'.val = k.val; rw [e1]; omega

/-- The W' tile of point t at (q, c'): W' at row 256·(t / 4 % 8) + q and column 512·(t % 4) + c'. -/
theorem wTile_apply (c : Dev nD) (t : Fin cfg1.N) (q : Fin 256) (c' : Fin 512) (d : Fin 2048) (k : Fin 2048)
    (hd : d.val = 256 * (t.val / 4 % 8) + q.val) (hk : k.val = 512 * (t.val % 4) + c'.val) :
    (iblk1 V c 1 t : Vec Ideal S256x512 .f32) (ix2 q c') = V c main_v1 (ix2 d k) := by
  obtain ⟨-, -, e2, e3, -⟩ := tiles1 t
  unfold iblk1
  rw [View.read_apply]
  show V c main_v1 _ = V c main_v1 _
  congr 1
  funext a
  apply Fin.ext
  match a with
  | ⟨0, _⟩ => show win1_1.index t (0 : Fin 2) * 256 + 1 * q.val = d.val; rw [e2]; omega
  | ⟨1, _⟩ => show win1_1.index t (1 : Fin 2) * 512 + 1 * c'.val = k.val; rw [e3]; omega

/-- The bias tile of point t at (0, q): the bias at column 256·(t / 4 % 8) + q. -/
theorem bTile_apply (c : Dev nD) (t : Fin cfg1.N) (q : Fin 256) (d : Fin 2048)
    (hd : d.val = 256 * (t.val / 4 % 8) + q.val) :
    (iblk1 V c 2 t : Vec Ideal S1x256 .f32) (ix2 (0 : Fin 1) q) = V c main_v2 (ix2 (0 : Fin 1) d) := by
  obtain ⟨-, -, -, -, e4, e5, -⟩ := tiles1 t
  unfold iblk1
  rw [View.read_apply]
  show V c main_v2 _ = V c main_v2 _
  congr 1
  funext a
  apply Fin.ext
  match a with
  | ⟨0, _⟩ => show win1_2.index t (0 : Fin 2) * 1 + 1 * 0 = 0; rw [e4]
  | ⟨1, _⟩ => show win1_2.index t (1 : Fin 2) * 256 + 1 * q.val = d.val; rw [e5]; omega

/-- The zeroed scratch tile reads 0 at every entry. -/
theorem zeroTile_apply (p q : Fin 256) : (k1_pay1 (F := Ideal)) (ix2 p q) = 0 := by
  unfold k1_pay1
  refine (congrFun (shapeCast_self _ _) (ix2 p q)).trans ?_
  exact Ideal.ofBits_zero_f32

/-- One accumulation step at an entry: the scratch entry before, plus the contraction over the 512 columns of row p of
    the x tile with row q of the W' tile (the product against the transposed right factor, accumulated into zero). -/
theorem step_apply (acc : Vec Ideal S256x256 .f32) (x w : Vec Ideal S256x512 .f32) (p q : Fin 256) :
    k1_pay2 acc x w (ix2 p q) = acc (ix2 p q) + ∑ c' : Fin 512, x (ix2 p c') * w (ix2 q c') := by
  have ex : shapeCast S256x512 x Facts₀.shapeCasts_S256x512_S256x512 = x := shapeCast_self _ _
  have ew : shapeCast S256x512 w Facts₀.shapeCasts_S256x512_S256x512 = w := shapeCast_self _ _
  unfold k1_pay2
  refine (congrFun (shapeCast_self _ _) (ix2 p q)).trans ?_
  refine congrArg (acc (ix2 p q) + ·) ?_
  show FloatOps.matmul (MatmulNT.rowRow _) none (shapeCast S256x512 x Facts₀.shapeCasts_S256x512_S256x512)
    (shapeCast S256x512 w Facts₀.shapeCasts_S256x512_S256x512) (constant (F := Ideal) ⟨2, ![256, 256]⟩ .f32 0x00000000#32) (ix2 p q) = _
  rw [ex, ew]
  exact MatmulNT.matmul_zero_apply _ none x w p q

/-- The step at point n with the tiles read from the arrays: the scratch entry before plus the point's chunk, the
    partial contraction number n % 4 of row 256·(n / 32) + p of x with row 256·(n / 4 % 8) + q of W'. -/
theorem acc1_step (c : Dev nD) (n : ℕ) (hn : n < cfg1.N) (acc : Vec Ideal S256x256 .f32) (p q : Fin 256)
    (r : Fin 4096) (d : Fin 2048) (kq : Fin 4)
    (hr : r.val = 256 * (n / 32) + p.val) (hd : d.val = 256 * (n / 4 % 8) + q.val) (hk : kq.val = n % 4) :
    k1_pay2 acc (iblk1 V c 0 ⟨n, hn⟩) (iblk1 V c 1 ⟨n, hn⟩) (ix2 p q)
      = acc (ix2 p q) + Cert.Spec.chunk (φ := .f32) (V c main_v0) (V c main_v1) r d kq := by
  refine (step_apply acc (iblk1 V c 0 ⟨n, hn⟩) (iblk1 V c 1 ⟨n, hn⟩) p q).trans ?_
  refine congrArg (acc (ix2 p q) + ·) ?_
  unfold Cert.Spec.chunk
  refine Finset.sum_congr rfl fun c' _ => ?_
  -- the flat column of the pair (chunk, c') is 512·chunk + c'
  have hcol : (Cert.LibSums.flat (N := 2048) (a := 4) (b := 512) rfl kq c').val = 512 * (n % 4) + c'.val := by
    show kq.val * 512 + c'.val = _
    rw [hk]; omega
  rw [xTile_apply V c ⟨n, hn⟩ p c' r _ hr hcol, wTile_apply V c ⟨n, hn⟩ q c' d _ hd hcol]

/-- THE PARTIAL SUMS at an entry, chunk by chunk. At a point n with n % 4 = 0 the scratch entry (p, q) of the tile
    (n / 32, n / 4 % 8) is the first chunk added to zero. -/
theorem acc1_chunks0 (c : Dev nD) (n : ℕ) (hn : n < cfg1.N) (h : n % 4 = 0) (p q : Fin 256) (r : Fin 4096) (d : Fin 2048)
    (hr : r.val = 256 * (n / 32) + p.val) (hd : d.val = 256 * (n / 4 % 8) + q.val) :
    acc1 V c n hn (ix2 p q) = 0 + Cert.Spec.chunk (φ := .f32) (V c main_v0) (V c main_v1) r d 0 := by
  refine (congrFun (acc1_first V c ⟨n, hn⟩ h) (ix2 p q)).trans ?_
  refine (acc1_step V c n hn (k1_pay1 (F := Ideal)) p q r d 0 hr hd h.symm).trans ?_
  rw [zeroTile_apply]

/-- At n % 4 = 1 the second chunk is added to what the point before (same tile, n % 4 = 0) left. -/
theorem acc1_chunks1 (c : Dev nD) (n : ℕ) (hn : n < cfg1.N) (h : n % 4 = 1) (p q : Fin 256) (r : Fin 4096) (d : Fin 2048)
    (hr : r.val = 256 * (n / 32) + p.val) (hd : d.val = 256 * (n / 4 % 8) + q.val) :
    acc1 V c n hn (ix2 p q)
      = (0 + Cert.Spec.chunk (φ := .f32) (V c main_v0) (V c main_v1) r d 0) + Cert.Spec.chunk (φ := .f32) (V c main_v0) (V c main_v1) r d 1 := by
  have hn' : n - 1 < cfg1.N := Nat.lt_of_le_of_lt (Nat.sub_le _ _) hn
  refine (congrFun (acc1_next V c ⟨n, hn⟩ (by show ¬n % 4 = 0; omega)) (ix2 p q)).trans ?_
  refine (acc1_step V c n hn (acc1 V c (n - 1) hn') p q r d 1 hr hd h.symm).trans ?_
  rw [acc1_chunks0 V c (n - 1) hn' (by omega) p q r d (by omega) (by omega)]

/-- At n % 4 = 2 the third chunk is added. -/
theorem acc1_chunks2 (c : Dev nD) (n : ℕ) (hn : n < cfg1.N) (h : n % 4 = 2) (p q : Fin 256) (r : Fin 4096) (d : Fin 2048)
    (hr : r.val = 256 * (n / 32) + p.val) (hd : d.val = 256 * (n / 4 % 8) + q.val) :
    acc1 V c n hn (ix2 p q)
      = ((0 + Cert.Spec.chunk (φ := .f32) (V c main_v0) (V c main_v1) r d 0) + Cert.Spec.chunk (φ := .f32) (V c main_v0) (V c main_v1) r d 1)
          + Cert.Spec.chunk (φ := .f32) (V c main_v0) (V c main_v1) r d 2 := by
  have hn' : n - 1 < cfg1.N := Nat.lt_of_le_of_lt (Nat.sub_le _ _) hn
  refine (congrFun (acc1_next V c ⟨n, hn⟩ (by show ¬n % 4 = 0; omega)) (ix2 p q)).trans ?_
  refine (acc1_step V c n hn (acc1 V c (n - 1) hn') p q r d 2 hr hd h.symm).trans ?_
  rw [acc1_chunks1 V c (n - 1) hn' (by omega) p q r d (by omega) (by omega)]

/-- At n % 4 = 3 the fourth chunk is added: the whole contraction, in the order the tiled program adds it up. -/
theorem acc1_chunks3 (c : Dev nD) (n : ℕ) (hn : n < cfg1.N) (h : n % 4 = 3) (p q : Fin 256) (r : Fin 4096) (d : Fin 2048)
    (hr : r.val = 256 * (n / 32) + p.val) (hd : d.val = 256 * (n / 4 % 8) + q.val) :
    acc1 V c n hn (ix2 p q)
      = (((0 + Cert.Spec.chunk (φ := .f32) (V c main_v0) (V c main_v1) r d 0) + Cert.Spec.chunk (φ := .f32) (V c main_v0) (V c main_v1) r d 1)
          + Cert.Spec.chunk (φ := .f32) (V c main_v0) (V c main_v1) r d 2) + Cert.Spec.chunk (φ := .f32) (V c main_v0) (V c main_v1) r d 3 := by
  have hn' : n - 1 < cfg1.N := Nat.lt_of_le_of_lt (Nat.sub_le _ _) hn
  refine (congrFun (acc1_next V c ⟨n, hn⟩ (by show ¬n % 4 = 0; omega)) (ix2 p q)).trans ?_
  refine (acc1_step V c n hn (acc1 V c (n - 1) hn') p q r d 3 hr hd h.symm).trans ?_
  rw [acc1_chunks2 V c (n - 1) hn' (by omega) p q r d (by omega) (by omega)]

/-- Adding the bias tile, one row broadcast down the 256 rows, at an entry. -/
theorem bias_apply (acc : Vec Ideal S256x256 .f32) (b : Vec Ideal S1x256 .f32) (p q : Fin 256) :
    k1_pay3 acc b (ix2 p q) = acc (ix2 p q) + b (ix2 (0 : Fin 1) q) := by
  unfold k1_pay3
  show acc (ix2 p q) + broadcastTo S256x256 (shapeCast S1x256 b Facts₀.shapeCasts_S1x256_S1x256) Facts₀.broadcasts_S1x256_S256x256 (ix2 p q) = _
  refine congrArg (acc (ix2 p q) + ·) ?_
  refine (broadcastTo_apply _ _ (ix2 p q) (ix2 (0 : Fin 1) q) (fun a => by
    match a with
    | ⟨0, _⟩ => rfl
    | ⟨1, _⟩ => rfl)).trans ?_
  exact congrFun (shapeCast_self b _) (ix2 (0 : Fin 1) q)

/-- What a point with k = 3 stores into its output tile, at (p, q): the entry of yTiled at row 256·i + p, column 256·j + q. -/
theorem out_entry (c : Dev nD) (t : Fin cfg1.N) (h3 : t.val % 4 = 3) (p q : Fin 256) (i : S4096x2048.Idx)
    (h0 : (i 0).val = 256 * (t.val / 32) + p.val) (h1 : (i 1).val = 256 * (t.val / 4 % 8) + q.val) :
    k1_pay3 (acc1 V c t.val t.isLt) (iblk1 V c 2 t) (ix2 p q)
      = Cert.Spec.yTiled (φ := .f32) (V c main_v0) (V c main_v1) (V c main_v2) i := by
  refine (bias_apply (acc1 V c t.val t.isLt) (iblk1 V c 2 t) p q).trans ?_
  unfold Cert.Spec.yTiled
  dsimp only
  rw [acc1_chunks3 V c t.val t.isLt h3 p q ⟨(i 0).val, idx2_lt0 i⟩ ⟨(i 1).val, idx2_lt1 i⟩ h0 h1,
    bTile_apply V c t q ⟨(i 1).val, idx2_lt1 i⟩ h1]

/-- WHAT A POINT WITH k = 3 WRITES BACK is its tile of yTiled of the region's entry arrays. -/
theorem flushed1_3 (c : Dev nD) (t : Fin cfg1.N) (hf : (cfg1.win 3).flush t = true) :
    (dat1 (F := Ideal) V c).flushed 3 t
      = ((cfg1.win 3).blk t).view.read (Elt Ideal) (Cert.Spec.yTiled (φ := .f32) (V c main_v0) (V c main_v1) (V c main_v2)) := by
  have h3 : t.val % 4 = 3 := (flush1_3 t).mp hf
  obtain ⟨-, -, -, -, -, -, e6, e7⟩ := tiles1 t
  show (cfg1.win 3).cut (grid1.coords t) ((dat1 (F := Ideal) V c).after 3 t) = _
  rw [after1_3]
  funext y
  obtain ⟨p, q, rfl⟩ : ∃ (p q : Fin 256), y = ix2 p q := ⟨y 0, y 1, eq_ix2 y⟩
  show k1_pay3 (acc1 V c t.val t.isLt) (iblk1 V c 2 t) (ix2 p q)
    = Cert.Spec.yTiled (φ := .f32) (V c main_v0) (V c main_v1) (V c main_v2) (((cfg1.win 3).blk t).view.emb (ix2 p q))
  refine out_entry V c t h3 p q _ ?_ ?_
  · show win1_3.index t (0 : Fin 2) * 256 + 1 * p.val = _
    rw [e6]; omega
  · show win1_3.index t (1 : Fin 2) * 256 + 1 * q.val = _
    rw [e7]; omega

/-- An index of y is in point t's output tile iff each coordinate is in the tile's range on its axis. -/
theorem mem_outTile (t : Fin cfg1.N) (i : S4096x2048.Idx) :
    i ∈ ((cfg1.win 3).blk t).view.set
      ↔ ∀ a : Fin 2, win1_3.index t a * S256x256.size a ≤ (i a).val ∧ (i a).val < win1_3.index t a * S256x256.size a + S256x256.size a := by
  show i ∈ ((View.whole main_v3).slice (win1_3.rect t)).set ↔ _
  rw [View.set_slice_whole, Rect.mem_set_unit]
  exact Iff.rfl

/-- THE COVER: entry (r, d) of y lies in the output tile of the point ((r / 256)·8 + d / 256)·4 + 3, which writes back. -/
theorem cover1 (i : S4096x2048.Idx) :
    ∃ t : Fin cfg1.N, (cfg1.win 3).flush t = true ∧ i ∈ ((cfg1.win 3).blk t).view.set := by
  have hi0 : (i 0).val < 4096 := (i 0).isLt
  have hi1 : (i 1).val < 2048 := (i 1).isLt
  have hN : grid1.N = 512 := N_1
  obtain ⟨t, ht⟩ : ∃ t : Fin cfg1.N, t.val = ((i 0).val / 256 * 8 + (i 1).val / 256) * 4 + 3 :=
    ⟨⟨((i 0).val / 256 * 8 + (i 1).val / 256) * 4 + 3, by show _ < grid1.N; rw [hN]; omega⟩, rfl⟩
  obtain ⟨-, -, -, -, -, -, e6, e7⟩ := tiles1 t
  refine ⟨t, (flush1_3 t).mpr (by omega), ?_⟩
  rw [mem_outTile]
  intro a
  match a with
  | ⟨0, _⟩ =>
    show win1_3.index t (0 : Fin 2) * 256 ≤ (i 0).val ∧ (i 0).val < win1_3.index t (0 : Fin 2) * 256 + 256
    rw [e6]; omega
  | ⟨1, _⟩ =>
    show win1_3.index t (1 : Fin 2) * 256 ≤ (i 1).val ∧ (i 1).val < win1_3.index t (1 : Fin 2) * 256 + 256
    rw [e7]; omega

end Region1

/-- Region 1's output array after the region: y with each contraction added up chunk by chunk. -/
theorem rY (V : (c : Dev nD) → (b : Ref sig .tc) → Buf (Elt Ideal) ((c : Thread nD τ).loc b)) (c : Dev nD) :
    (dat1 (F := Ideal) V c).arrAt 3 cfg1.N = Cert.Spec.yTiled (φ := .f32) (V c main_v0) (V c main_v1) (V c main_v2) :=
  (dat1 (F := Ideal) V c).arrAt_eq_of_cover 3 _ (fun t hf => Region1.flushed1_3 V c t hf) Region1.cover1

namespace Result

variable (m : (ℓ : Loc nD τ sig) → Buf (Elt Ideal) ℓ) (ρ : Dev nD → PrngReg)

/-- An argument buffer as region 0 finds it: the first host item (the reshape of x) does not write it. -/
theorem V1_main_arg1 (c : Dev nD) : V1 m ρ c main_arg1 = m ((c : Thread nD τ).loc main_arg1) := by
  show StableHlo.after hostOps0 (W0 m ρ c) (Proc.devRef .tc main_arg1) = _
  simp only [hostOps0]
  after_results
theorem V1_main_arg2 (c : Dev nD) : V1 m ρ c main_arg2 = m ((c : Thread nD τ).loc main_arg2) := by
  show StableHlo.after hostOps0 (W0 m ρ c) (Proc.devRef .tc main_arg2) = _
  simp only [hostOps0]
  after_results
theorem V1_main_arg3 (c : Dev nD) : V1 m ρ c main_arg3 = m ((c : Thread nD τ).loc main_arg3) := by
  show StableHlo.after hostOps0 (W0 m ρ c) (Proc.devRef .tc main_arg3) = _
  simp only [hostOps0]
  after_results
theorem V1_main_arg4 (c : Dev nD) : V1 m ρ c main_arg4 = m ((c : Thread nD τ).loc main_arg4) := by
  show StableHlo.after hostOps0 (W0 m ρ c) (Proc.devRef .tc main_arg4) = _
  simp only [hostOps0]
  after_results
theorem V1_main_arg5 (c : Dev nD) : V1 m ρ c main_arg5 = m ((c : Thread nD τ).loc main_arg5) := by
  show StableHlo.after hostOps0 (W0 m ρ c) (Proc.devRef .tc main_arg5) = _
  simp only [hostOps0]
  after_results

/-- x as region 1 finds it: the reshape of the first argument to [4096, 2048], written by the first host item and by
    nothing after it (region 0's arrays are the four weight arguments and W'; the second host item writes the bias). -/
theorem V3_main_v0 (c : Dev nD) :
    V3 m ρ c main_v0 = shapeCast S4096x2048 (m ((c : Thread nD τ).loc main_arg0)) Facts₀.shapeCasts_S8x512x2048_S4096x2048 :=
  calc V3 m ρ c main_v0
    _ = W2 m ρ c (Proc.devRef .tc main_v0) := by
        show StableHlo.after hostOps1 (W2 m ρ c) (Proc.devRef .tc main_v0) = _
        simp only [hostOps1]
        after_results
    _ = W1 m ρ c (Proc.devRef .tc main_v0) := W2_of_ne m ρ c main_v0 (by decide)
    _ = _ := by
        show StableHlo.after hostOps0 (W0 m ρ c) (Proc.devRef .tc main_v0) = _
        simp only [hostOps0]
        after_results
        rfl

/-- W' as region 1 finds it: region 0's output array, which the second host item does not write: wArr of the four
    weight arguments. -/
theorem V3_main_v1 (c : Dev nD) :
    V3 m ρ c main_v1
      = Cert.Spec.wArr (φ := .f32) (fun a b x d => k0_pay1 (F := Ideal) a b x d) (m ((c : Thread nD τ).loc main_arg1))
          (m ((c : Thread nD τ).loc main_arg2)) (m ((c : Thread nD τ).loc main_arg3)) (m ((c : Thread nD τ).loc main_arg4)) :=
  calc V3 m ρ c main_v1
    _ = W2 m ρ c (Proc.devRef .tc main_v1) := by
        show StableHlo.after hostOps1 (W2 m ρ c) (Proc.devRef .tc main_v1) = _
        simp only [hostOps1]
        after_results
    _ = (dat0 (V1 m ρ) c).arrAt 4 cfg0.N := W2_arr m ρ c 4
    _ = Cert.Spec.wArr (φ := .f32) (fun a b x d => k0_pay1 (F := Ideal) a b x d) (V1 m ρ c main_arg1) (V1 m ρ c main_arg2)
          (V1 m ρ c main_arg3) (V1 m ρ c main_arg4) := rW (V1 m ρ) c
    _ = _ := by rw [V1_main_arg1, V1_main_arg2, V1_main_arg3, V1_main_arg4]

/-- The bias as region 1 finds it: the reshape of the last argument to [1, 2048], written by the second host item from
    a buffer nothing before it writes. -/
theorem V3_main_v2 (c : Dev nD) :
    V3 m ρ c main_v2 = shapeCast S1x2048 (m ((c : Thread nD τ).loc main_arg5)) Facts₀.shapeCasts_S2048_S1x2048 :=
  calc V3 m ρ c main_v2
    _ = shapeCast S1x2048 (W2 m ρ c (Proc.devRef .tc main_arg5)) Facts₀.shapeCasts_S2048_S1x2048 := by
        show StableHlo.after hostOps1 (W2 m ρ c) (Proc.devRef .tc main_v2) = _
        simp only [hostOps1]
        after_results
        rfl
    _ = shapeCast S1x2048 (W1 m ρ c (Proc.devRef .tc main_arg5)) Facts₀.shapeCasts_S2048_S1x2048 :=
        congrArg (fun v => shapeCast S1x2048 v Facts₀.shapeCasts_S2048_S1x2048) (W2_of_ne m ρ c main_arg5 (by decide))
    _ = _ := congrArg (fun v => shapeCast S1x2048 v Facts₀.shapeCasts_S2048_S1x2048) (V1_main_arg5 m ρ c)

end Result

/-- The result buffer at the end of the run, as a function of the argument buffers at launch. -/
theorem rResult (m : (ℓ : Loc nD τ sig) → Buf (Elt Ideal) ℓ) (ρ : Dev nD → PrngReg) (c : Dev nD) :
    W5 m ρ c (Proc.devRef .tc main_v4)
      = shapeCast S8x512x2048
          (Cert.Spec.yTiled (φ := .f32) (shapeCast S4096x2048 (m ((c : Thread nD τ).loc main_arg0)) Facts₀.shapeCasts_S8x512x2048_S4096x2048)
            (Cert.Spec.wArr (φ := .f32) (fun a b x d => k0_pay1 (F := Ideal) a b x d) (m ((c : Thread nD τ).loc main_arg1)) (m ((c : Thread nD τ).loc main_arg2))
              (m ((c : Thread nD τ).loc main_arg3)) (m ((c : Thread nD τ).loc main_arg4)))
            (shapeCast S1x2048 (m ((c : Thread nD τ).loc main_arg5)) Facts₀.shapeCasts_S2048_S1x2048))
          Facts₀.shapeCasts_S4096x2048_S8x512x2048 :=
  calc W5 m ρ c (Proc.devRef .tc main_v4)
    _ = shapeCast S8x512x2048 (W4 m ρ c (Proc.devRef .tc main_v3)) Facts₀.shapeCasts_S4096x2048_S8x512x2048 := by
        show StableHlo.after hostOps2 (W4 m ρ c) (Proc.devRef .tc main_v4) = _
        simp only [hostOps2]
        after_results
        rfl
    _ = shapeCast S8x512x2048 ((dat1 (V3 m ρ) c).arrAt 3 cfg1.N) Facts₀.shapeCasts_S4096x2048_S8x512x2048 :=
        congrArg (fun v => shapeCast S8x512x2048 v Facts₀.shapeCasts_S4096x2048_S8x512x2048) (W4_arr m ρ c 3)
    _ = shapeCast S8x512x2048 (Cert.Spec.yTiled (φ := .f32) (V3 m ρ c main_v0) (V3 m ρ c main_v1) (V3 m ρ c main_v2))
          Facts₀.shapeCasts_S4096x2048_S8x512x2048 :=
        congrArg (fun v => shapeCast S8x512x2048 v Facts₀.shapeCasts_S4096x2048_S8x512x2048) (rY (V3 m ρ) c)
    _ = _ := by rw [Result.V3_main_v0, Result.V3_main_v1, Result.V3_main_v2]

end Cert.ReferenceIdeal.Hand

end
-- ==== Proof.lean ====
/-
  THE CERTIFICATE. A DoRA linear layer: W' = (V + B·A) · (m · rsqrt(column sums of (V + B·A)²)), y = x·W'ᵀ + bias.

  The kernel computes W' in four column blocks (stored in a narrower float format, which over the extended reals is the
  identity) and then y in eight row blocks, each entry one contraction over all 2048 columns. The reference computes W'
  by the same block body and then y tile by tile (256 × 256), adding four partial contractions of 512 columns each into a
  zeroed accumulator before the bias. Over the extended reals the two results are the same function of the arguments:
  the first stage is the same text (pay0_eq), and the full contraction is the sum of its four chunks because addition of
  extended reals is commutative and associative with no exception (Spec.yTiled_eq) — so the precondition (finite inputs)
  is never opened.

  Frames: the kernel's two programs have their frames proved whole by the generated modules; the reference's frame is
  the run of its five items with the tiled region's scratch carried through the region's invariant (RefRun.frame).
  preserves: the idealisation rewrote nothing.
-/
import proofs.«127857_g2000709426913694_pallasbulk_956_2_alg».proof.Defs
import proofs.«127857_g2000709426913694_pallasbulk_956_2_alg».proof.Proof.Gen.Kernel
import proofs.«127857_g2000709426913694_pallasbulk_956_2_alg».proof.Proof.Gen.Kernel.Frame
import proofs.«127857_g2000709426913694_pallasbulk_956_2_alg».proof.Proof.Gen.KernelIdeal
import proofs.«127857_g2000709426913694_pallasbulk_956_2_alg».proof.Proof.Gen.KernelIdeal.Frame
import proofs.«127857_g2000709426913694_pallasbulk_956_2_alg».proof.Proof.Gen.ReferenceIdeal
import proofs.«127857_g2000709426913694_pallasbulk_956_2_alg».proof.Proof.Gen.Pre_finite_inputs
import proofs.«127857_g2000709426913694_pallasbulk_956_2_alg».proof.Proof.KerValue
import proofs.«127857_g2000709426913694_pallasbulk_956_2_alg».proof.Proof.RefValue
import Idealize.ShloMosaic.Adequacy
import Idealize.ShloMosaic.Init

noncomputable section

namespace Cert.Proof

open Idealize.ShloMosaic Idealize.ShloMosaic.TcCoe Idealize.SL.Sem

/-- The first stage's block body is the same function in the two programs: the same operations in the same order, the
    kernel's closing change of float format the identity on extended reals. -/
theorem pay0_eq (a : FVec Ideal ⟨2, ![2048, 16]⟩ .f32) (b : FVec Ideal ⟨2, ![16, 512]⟩ .f32)
    (x : FVec Ideal ⟨2, ![2048, 512]⟩ .f32) (d : FVec Ideal ⟨2, ![1, 512]⟩ .f32) :
    (Cert.KernelIdeal.Gen.k0_pay1 (F := Ideal) a b x d : (⟨2, ![2048, 512]⟩ : Shape).Idx → EReal)
      = Cert.ReferenceIdeal.Gen.k0_pay1 (F := Ideal) a b x d := by
  unfold Cert.KernelIdeal.Gen.k0_pay1 Cert.ReferenceIdeal.Gen.k0_pay1
  rfl

/-- The two programs' results are one function of the arguments. -/
theorem result_eq (X : FVec Ideal ⟨2, ![4096, 2048]⟩ .f32) (V : FVec Ideal ⟨2, ![2048, 2048]⟩ .f32)
    (B : FVec Ideal ⟨2, ![2048, 16]⟩ .f32) (A : FVec Ideal ⟨2, ![16, 2048]⟩ .f32) (M : FVec Ideal ⟨2, ![1, 2048]⟩ .f32)
    (bias : FVec Ideal ⟨2, ![1, 2048]⟩ .f32) :
    Cert.Spec.yTiled X (Cert.Spec.wArr (φ := .f32) (fun a b x d => Cert.ReferenceIdeal.Gen.k0_pay1 (F := Ideal) a b x d) V B A M) bias
      = Cert.Spec.yArr X (Cert.Spec.wArr (φ := .bf16) (fun a b x d => Cert.KernelIdeal.Gen.k0_pay1 (F := Ideal) a b x d) V B A M) bias := by
  rw [Cert.Spec.yTiled_eq]
  have hW : (Cert.Spec.wArr (φ := .f32) (fun a b x d => Cert.ReferenceIdeal.Gen.k0_pay1 (F := Ideal) a b x d) V B A M : (⟨2, ![2048, 2048]⟩ : Shape).Idx → EReal)
      = Cert.Spec.wArr (φ := .bf16) (fun a b x d => Cert.KernelIdeal.Gen.k0_pay1 (F := Ideal) a b x d) V B A M := by
    funext i
    unfold Cert.Spec.wArr
    exact (congrFun (pay0_eq _ _ _ _) _).symm
  funext i
  unfold Cert.Spec.yArr
  dsimp only
  rw [hW]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Hand.frame m ρ
theorem preserves : Cert.preserves_Kernel_KernelIdeal := trivial

/-- Both programs run, keep their arguments, and end with the same result: the kernel's at the reshape of yArr of the
    arguments (KerValue.kResult), the reference's at the reshape of yTiled of its arguments (RefValue.rResult), which agree
    with the kernel's (hagree), and the two are one function (result_eq). -/
theorem algebraic : Cert.algebraic_KernelIdeal_ReferenceIdeal := by
  intro m ρ m' ρ' _ hagree
  refine ⟨fun c => Cert.KernelIdeal.Gen.W5 m ρ c (Proc.devRef .tc Cert.KernelIdeal.main_v4), ?_, ?_⟩
  · refine (θ_run Cert.KernelIdeal.defs _ _).mono (fun r h c => ?_) (Cert.KernelIdeal.Hand.run_all m ρ)
    exact ⟨h c _ (Cert.KernelIdeal.Gen.mem_uc Cert.KernelIdeal.main_v4 (by decide)),
      (h c _ (Cert.KernelIdeal.Gen.mem_uc Cert.KernelIdeal.main_arg0 (by decide))).trans (Cert.KernelIdeal.Gen.W5_main_arg0 m ρ c),
      (h c _ (Cert.KernelIdeal.Gen.mem_uc Cert.KernelIdeal.main_arg1 (by decide))).trans (Cert.KernelIdeal.Gen.W5_main_arg1 m ρ c),
      (h c _ (Cert.KernelIdeal.Gen.mem_uc Cert.KernelIdeal.main_arg2 (by decide))).trans (Cert.KernelIdeal.Gen.W5_main_arg2 m ρ c),
      (h c _ (Cert.KernelIdeal.Gen.mem_uc Cert.KernelIdeal.main_arg3 (by decide))).trans (Cert.KernelIdeal.Gen.W5_main_arg3 m ρ c),
      (h c _ (Cert.KernelIdeal.Gen.mem_uc Cert.KernelIdeal.main_arg4 (by decide))).trans (Cert.KernelIdeal.Gen.W5_main_arg4 m ρ c),
      (h c _ (Cert.KernelIdeal.Gen.mem_uc Cert.KernelIdeal.main_arg5 (by decide))).trans (Cert.KernelIdeal.Gen.W5_main_arg5 m ρ c)⟩
  · refine (θ_run Cert.ReferenceIdeal.defs _ _).mono (fun r h c => ?_) (Cert.ReferenceIdeal.Hand.run_all m' ρ')
    refine ⟨(h c _ (Cert.ReferenceIdeal.Hand.mem_uc Cert.ReferenceIdeal.main_v4 (by decide))).trans ?_,
      (h c _ (Cert.ReferenceIdeal.Hand.mem_uc Cert.ReferenceIdeal.main_arg0 (by decide))).trans (Cert.ReferenceIdeal.Hand.W5_main_arg0 m' ρ' c),
      (h c _ (Cert.ReferenceIdeal.Hand.mem_uc Cert.ReferenceIdeal.main_arg1 (by decide))).trans (Cert.ReferenceIdeal.Hand.W5_main_arg1 m' ρ' c),
      (h c _ (Cert.ReferenceIdeal.Hand.mem_uc Cert.ReferenceIdeal.main_arg2 (by decide))).trans (Cert.ReferenceIdeal.Hand.W5_main_arg2 m' ρ' c),
      (h c _ (Cert.ReferenceIdeal.Hand.mem_uc Cert.ReferenceIdeal.main_arg3 (by decide))).trans (Cert.ReferenceIdeal.Hand.W5_main_arg3 m' ρ' c),
      (h c _ (Cert.ReferenceIdeal.Hand.mem_uc Cert.ReferenceIdeal.main_arg4 (by decide))).trans (Cert.ReferenceIdeal.Hand.W5_main_arg4 m' ρ' c),
      (h c _ (Cert.ReferenceIdeal.Hand.mem_uc Cert.ReferenceIdeal.main_arg5 (by decide))).trans (Cert.ReferenceIdeal.Hand.W5_main_arg5 m' ρ' c)⟩
    rw [Cert.ReferenceIdeal.Hand.rResult m' ρ' c]
    refine Eq.trans ?_ (Cert.KernelIdeal.Hand.kResult m ρ c).symm
    rw [(hagree c).1, (hagree c).2.1, (hagree c).2.2.1, (hagree c).2.2.2.1, (hagree c).2.2.2.2.1, (hagree c).2.2.2.2.2]
    exact congrArg (fun y => shapeCast _ y _) (result_eq _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
